-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S512x1 .f32) (main_arg10 : FVec F S1 .f32) (main_v33 : IVec S_ 1) : IVec S_ 1 :=
  let main_v34 : FVec F S512x1 .f32 := Host.absf main_arg9
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S512 .f32) (main_arg7 : FVec F S1024x512 .f32) (main_arg8 : FVec F S512 .f32) (main_arg9 : FVec F S512x1 .f32) (main_arg10 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S2x400000 32) (main_arg2 : IVec S2x200000 32) (main_arg3 : FVec F S512x512 .f32) (main_arg4 : FVec F S512 .f32) (main_arg5 : FVec F S512x512 .f32) (main_arg6 : FVec F S512 .f32) (main_arg7 : FVec F S1024x512 .f32) (main_arg8 : FVec F S512 .f32) (main_arg9 : FVec F S512x1 .f32) (main_arg10 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S2000x512 : Shape := ⟨2, ![2000, 512]⟩
abbrev S450000x512 : Shape := ⟨2, ![450000, 512]⟩
abbrev S1x512 : Shape := ⟨2, ![1, 512]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S1x1 : Shape := ⟨2, ![1, 1]⟩
abbrev S2000x1 : Shape := ⟨2, ![2000, 1]⟩

abbrev nBuf : Space → Nat
  | .hbm => 126
  | .vmem => 21
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S2x200000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S1x400000, .i32⟩
  | .hbm, ⟨12, _⟩ => ⟨S400000, .i32⟩
  | .hbm, ⟨13, _⟩ => ⟨S50000, .i32⟩
  | .hbm, ⟨14, _⟩ => ⟨S450000, .i32⟩
  | .hbm, ⟨15, _⟩ => ⟨S1x400000, .i32⟩
  | .hbm, ⟨16, _⟩ => ⟨S400000, .i32⟩
  | .hbm, ⟨17, _⟩ => ⟨S50000, .i32⟩
  | .hbm, ⟨18, _⟩ => ⟨S450000, .i32⟩
  | .hbm, ⟨19, _⟩ => ⟨S_, .f32⟩
  | .hbm, ⟨20, _⟩ => ⟨S450000, .f32⟩
  | .hbm, ⟨21, _⟩ => ⟨S_, .f32⟩
  | .hbm, ⟨22, _⟩ => ⟨S50000, .f32⟩
  | .hbm, ⟨23, _⟩ => ⟨S450000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S450000, .i32⟩
  | .hbm, ⟨38, _⟩ => ⟨S450000, .i1⟩
  | .hbm, ⟨39, _⟩ => ⟨S_, .i32⟩
  | .hbm, ⟨40, _⟩ => ⟨S450000, .i32⟩
  | .hbm, ⟨41, _⟩ => ⟨S450000, .i32⟩
  | .hbm, ⟨42, _⟩ => ⟨S450000, .i32⟩
  | .hbm, ⟨43, _⟩ => ⟨S450000x1, .i32⟩
  | .hbm, ⟨44, _⟩ => ⟨S450000, .f32⟩
  | .hbm, ⟨45, _⟩ => ⟨S_, .i32⟩
  | .hbm, ⟨46, _⟩ => ⟨S450000, .i32⟩
  | .hbm, ⟨47, _⟩ => ⟨S450000, .i1⟩
  | .hbm, ⟨48, _⟩ => ⟨S_, .i32⟩
  | .hbm, ⟨49, _⟩ => ⟨S450000, .i32⟩
  | .hbm, ⟨50, _⟩ => ⟨S450000, .i32⟩
  | .hbm, ⟨51, _⟩ => ⟨S450000, .i32⟩
  | .hbm, ⟨52, _⟩ => ⟨S450000x1, .i32⟩
  | .hbm, ⟨53, _⟩ => ⟨S450000, .f32⟩
  | .hbm, ⟨54, _⟩ => ⟨S450000, .f32⟩
  | .hbm, ⟨55, _⟩ => ⟨S50000x512, .f32⟩
  | .hbm, ⟨56, _⟩ => ⟨S_, .i32⟩
  | .hbm, ⟨57, _⟩ => ⟨S450000, .i32⟩
  | .hbm, ⟨58, _⟩ => ⟨S450000, .i1⟩
  | .hbm, ⟨59, _⟩ => ⟨S_, .i32⟩
  | .hbm, ⟨60, _⟩ => ⟨S450000, .i32⟩
  | .hbm, ⟨61, _⟩ => ⟨S450000, .i32⟩
  | .hbm, ⟨62, _⟩ => ⟨S450000, .i32⟩
  | .hbm, ⟨63, _⟩ => ⟨S450000x1, .i32⟩
  | .hbm, ⟨64, _⟩ => ⟨S450000x512, .f32⟩
  | .hbm, ⟨65, _⟩ => ⟨S450000x1, .f32⟩
  | .hbm, ⟨66, _⟩ => ⟨S450000x512, .f32⟩
  | .hbm, ⟨67, _⟩ => ⟨S450000x512, .f32⟩
  | .hbm, ⟨68, _⟩ => ⟨S_, .f32⟩
  | .hbm, ⟨69, _⟩ => ⟨S50000x512, .f32⟩
  | .hbm, ⟨70, _⟩ => ⟨S450000x1, .i32⟩
  | .hbm, ⟨71, _⟩ => ⟨S50000x512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S_, .f32⟩
  | .hbm, ⟨76, _⟩ => ⟨S50000x512, .f32⟩
  | .hbm, ⟨77, _⟩ => ⟨S50000x512, .f32⟩
  | .hbm, ⟨78, _⟩ => ⟨S50000x512, .f32⟩
  | .hbm, ⟨79, _⟩ => ⟨S_, .i32⟩
  | .hbm, ⟨80, _⟩ => ⟨S450000, .i32⟩
  | .hbm, ⟨81, _⟩ => ⟨S450000, .i1⟩
  | .hbm, ⟨82, _⟩ => ⟨S_, .i32⟩
  | .hbm, ⟨83, _⟩ => ⟨S450000, .i32⟩
  | .hbm, ⟨84, _⟩ => ⟨S450000, .i32⟩
  | .hbm, ⟨85, _⟩ => ⟨S450000, .i32⟩
  | .hbm, ⟨86, _⟩ => ⟨S450000x1, .i32⟩
  | .hbm, ⟨87, _⟩ => ⟨S450000x512, .f32⟩
  | .hbm, ⟨88, _⟩ => ⟨S450000x1, .f32⟩
  | .hbm, ⟨89, _⟩ => ⟨S450000x512, .f32⟩
  | .hbm, ⟨90, _⟩ => ⟨S450000x512, .f32⟩
  | .hbm, ⟨91, _⟩ => ⟨S_, .f32⟩
  | .hbm, ⟨92, _⟩ => ⟨S50000x512, .f32⟩
  | .hbm, ⟨93, _⟩ => ⟨S450000x1, .i32⟩
  | .hbm, ⟨94, _⟩ => ⟨S50000x512, .f32⟩
  | .hbm, ⟨95, _⟩ => ⟨S1x512, .f32⟩
  | .hbm, ⟨96, _⟩ => ⟨S50000x512, .f32⟩
  | .hbm, ⟨97, _⟩ => ⟨S50000x512, .f32⟩
  | .hbm, ⟨98, _⟩ => ⟨S1x200000, .i32⟩
  | .hbm, ⟨99, _⟩ => ⟨S200000, .i32⟩
  | .hbm, ⟨100, _⟩ => ⟨S_, .i32⟩
  | .hbm, ⟨101, _⟩ => ⟨S200000, .i32⟩
  | .hbm, ⟨102, _⟩ => ⟨S200000, .i1⟩
  | .hbm, ⟨103, _⟩ => ⟨S_, .i32⟩
  | .hbm, ⟨104, _⟩ => ⟨S200000, .i32⟩
  | .hbm, ⟨105, _⟩ => ⟨S200000, .i32⟩
  | .hbm, ⟨106, _⟩ => ⟨S200000, .i32⟩
  | .hbm, ⟨107, _⟩ => ⟨S200000x1, .i32⟩
  | .hbm, ⟨108, _⟩ => ⟨S200000x512, .f32⟩
  | .hbm, ⟨109, _⟩ => ⟨S1x200000, .i32⟩
  | .hbm, ⟨110, _⟩ => ⟨S200000, .i32⟩
  | .hbm, ⟨111, _⟩ => ⟨S_, .i32⟩
  | .hbm, ⟨112, _⟩ => ⟨S200000, .i32⟩
  | .hbm, ⟨113, _⟩ => ⟨S200000, .i1⟩
  | .hbm, ⟨114, _⟩ => ⟨S_, .i32⟩
  | .hbm, ⟨115, _⟩ => ⟨S200000, .i32⟩
  | .hbm, ⟨116, _⟩ => ⟨S200000, .i32⟩
  | .hbm, ⟨117, _⟩ => ⟨S200000, .i32⟩
  | .hbm, ⟨118, _⟩ => ⟨S200000x1, .i32⟩
  | .hbm, ⟨119, _⟩ => ⟨S200000x512, .f32⟩
  | .hbm, ⟨120, _⟩ => ⟨S512x512, .f32⟩
  | .hbm, ⟨121, _⟩ => ⟨S512x512, .f32⟩
  | .hbm, ⟨122, _⟩ => ⟨S1x512, .f32⟩
  | .hbm, ⟨123, _⟩ => ⟨S1x1, .f32⟩
  | .hbm, ⟨124, _⟩ => ⟨S200000x1, .f32⟩
  | .hbm, ⟨125, _⟩ => ⟨S200000, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S2000x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S512x1, .f32⟩
  | .local _ .vmem, ⟨18, _⟩ => ⟨S1x1, .f32⟩
  | .local _ .vmem, ⟨19, _⟩ => ⟨S2000x1, .f32⟩
  | .local _ .vmem, ⟨20, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S2000x512_S2000x512 : S2000x512.ShapeCasts S2000x512
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S1024x512_S512x512_0_0 : S1024x512.Slices ![0, 0] S512x512
  slices_S1024x512_S512x512_512_0 : S1024x512.Slices ![512, 0] S512x512
  shapeCasts_S512_S1x512 : S512.ShapeCasts S1x512
  shapeCasts_S1_S1x1 : S1.ShapeCasts S1x1
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x512_S512x512_S2000x512_1_0_0_1_n_n_wf : DotDims.WF S2000x512 S512x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S200000x1_S200000x512_1_0_n_n_0_1_1512_wf : GatherDims.WF S50000x512 S200000x1 S200000x512 [1] [0] [] [0] [] 1 ![1, 512]
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S200000x512.size a
  hwx2_0 : ∀ i : grid2.Coords, EltTy.bits .f32 = 32 ∨ (Rect.block (s := S200000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S200000x512.size a
  hwx2_1 : ∀ i : grid2.Coords, EltTy.bits .f32 = 32 ∨ (Rect.block (s := S200000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S200000x1.size a
  hwx2_7 : ∀ i : grid2.Coords, EltTy.bits .f32 = 32 ∨ (Rect.block (s := S200000x1) S2000x1.size (cc2_transform_7 i) (hinb2_7 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v89) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v90) S2000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S2x200000 : Shape := ⟨2, ![2, 200000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S1x200000 : Shape := ⟨2, ![1, 200000]⟩
abbrev S200000 : Shape := ⟨1, ![200000]⟩
abbrev S200000x1 : Shape := ⟨2, ![200000, 1]⟩
abbrev S200000x512 : Shape := ⟨2, ![200000, 512]⟩
abbrev S200000x1024 : Shape := ⟨2, ![200000, 1024]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S50000x512, .f32⟩
  | 1 => ⟨S2x400000, .i32⟩
  | 2 => ⟨S2x200000, .i32⟩
  | 3 => ⟨S512x512, .f32⟩
  | 4 => ⟨S512, .f32⟩
  | 5 => ⟨S512x512, .f32⟩
  | 6 => ⟨S512, .f32⟩
  | 7 => ⟨S1024x512, .f32⟩
  | 8 => ⟨S512, .f32⟩
  | 9 => ⟨S512x1, .f32⟩
  | 10 => ⟨S1, .f32⟩
  | 11 => ⟨S1x400000, .i32⟩
  | 12 => ⟨S400000, .i32⟩
  | 13 => ⟨S50000, .i32⟩
  | 14 => ⟨S450000, .i32⟩
  | 15 => ⟨S1x400000, .i32⟩
  | 16 => ⟨S400000, .i32⟩
  | 17 => ⟨S50000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000, .f32⟩
  | 45 => ⟨S_, .i32⟩
  | 46 => ⟨S450000, .i32⟩
  | 47 => ⟨S450000, .i1⟩
  | 48 => ⟨S_, .i32⟩
  | 49 => ⟨S450000, .i32⟩
  | 50 => ⟨S450000, .i32⟩
  | 51 => ⟨S450000, .i32⟩
  | 52 => ⟨S450000x1, .i32⟩
  | 53 => ⟨S450000, .f32⟩
  | 54 => ⟨S450000, .f32⟩
  | 55 => ⟨S50000x512, .f32⟩
  | 56 => ⟨S_, .i32⟩
  | 57 => ⟨S450000, .i32⟩
  | 58 => ⟨S450000, .i1⟩
  | 59 => ⟨S_, .i32⟩
  | 60 => ⟨S450000, .i32⟩
  | 61 => ⟨S450000, .i32⟩
  | 62 => ⟨S450000, .i32⟩
  | 63 => ⟨S450000x1, .i32⟩
  | 64 => ⟨S450000x512, .f32⟩
  | 65 => ⟨S450000x1, .f32⟩
  | 66 => ⟨S450000x512, .f32⟩
  | 67 => ⟨S450000x512, .f32⟩
  | 68 => ⟨S_, .f32⟩
  | 69 => ⟨S50000x512, .f32⟩
  | 70 => ⟨S450000x1, .i32⟩
  | 71 => ⟨S50000x512, .f32⟩
  | 72 => ⟨S1x512, .f32⟩
  | 73 => ⟨S50000x512, .f32⟩
  | 74 => ⟨S50000x512, .f32⟩
  | 75 => ⟨S_, .f32⟩
  | 76 => ⟨S50000x512, .f32⟩
  | 77 => ⟨S50000x512, .f32⟩
  | 78 => ⟨S50000x512, .f32⟩
  | 79 => ⟨S_, .i32⟩
  | 80 => ⟨S450000, .i32⟩
  | 81 => ⟨S450000, .i1⟩
  | 82 => ⟨S_, .i32⟩
  | 83 => ⟨S450000, .i32⟩
  | 84 => ⟨S450000, .i32⟩
  | 85 => ⟨S450000, .i32⟩
  | 86 => ⟨S450000x1, .i32⟩
  | 87 => ⟨S450000x512, .f32⟩
  | 88 => ⟨S450000x1, .f32⟩
  | 89 => ⟨S450000x512, .f32⟩
  | 90 => ⟨S450000x512, .f32⟩
  | 91 => ⟨S_, .f32⟩
  | 92 => ⟨S50000x512, .f32⟩
  | 93 => ⟨S450000x1, .i32⟩
  | 94 => ⟨S50000x512, .f32⟩
  | 95 => ⟨S1x512, .f32⟩
  | 96 => ⟨S50000x512, .f32⟩
  | 97 => ⟨S50000x512, .f32⟩
  | 98 => ⟨S1x200000, .i32⟩
  | 99 => ⟨S200000, .i32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x512, .f32⟩
  | 109 => ⟨S1x200000, .i32⟩
  | 110 => ⟨S200000, .i32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x512, .f32⟩
  | 120 => ⟨S200000x1024, .f32⟩
  | 121 => ⟨S200000x512, .f32⟩
  | 122 => ⟨S1x512, .f32⟩
  | 123 => ⟨S200000x512, .f32⟩
  | 124 => ⟨S200000x512, .f32⟩
  | 125 => ⟨S_, .f32⟩
  | 126 => ⟨S200000x512, .f32⟩
  | 127 => ⟨S200000x512, .f32⟩
  | _ => ⟨S50000x512, .f32⟩

abbrev hbmTy0_1 (i : Nat) : BufTy := match i % 128 with
  | 0 => ⟨S200000x1, .f32⟩
  | 1 => ⟨S1x1, .f32⟩
  | 2 => ⟨S200000x1, .f32⟩
  | 3 => ⟨S200000x1, .f32⟩
  | 4 => ⟨S200000, .f32⟩
  | 5 => ⟨S200000, .f32⟩
  | 6 => ⟨S200000, .f32⟩
  | 7 => ⟨S_, .f32⟩
  | 8 => ⟨S200000, .f32⟩
  | 9 => ⟨S200000, .f32⟩
  | 10 => ⟨S_, .f32⟩
  | 11 => ⟨S200000, .f32⟩
  | 12 => ⟨S200000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x512_S200000x512_S200000x1024_d1 : Shape.Concatenates [S200000x512, S200000x512] S200000x1024 1
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x512_S512x512_S50000x512_1_0_0_1_n_n_wf : DotDims.WF S50000x512 S512x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S200000x1_S200000x512_1_0_n_n_0_1_1512_wf : GatherDims.WF S50000x512 S200000x1 S200000x512 [1] [0] [] [0] [] 1 ![1, 512]
  dot_S200000x1024_S1024x512_S200000x512_1_0_0_1_n_n_wf : DotDims.WF S200000x1024 S1024x512 S200000x512 [1] [0] [0] [1] [] []
  dot_S200000x512_S512x1_S200000x1_1_0_0_1_n_n_wf : DotDims.WF S200000x512 S512x1 S200000x1 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S200000x1024_S1024x512_S200000x512_1_0_0_1_n_n : DotDims S200000x1024 S1024x512 S200000x512 where
  lhsContracting := [1]
  rhsContracting := [0]
  lhsNonContracting := [0]
  rhsNonContracting := [1]
  lhsBatch := []
  rhsBatch := []
  wf := dot_S200000x1024_S1024x512_S200000x512_1_0_0_1_n_n_wf
def dot_S200000x512_S512x1_S200000x1_1_0_0_1_n_n : DotDims S200000x512 S512x1 S200000x1 where
  lhsContracting := [1]
  rhsContracting := [0]
  lhsNonContracting := [0]
  rhsNonContracting := [1]
  lhsBatch := []
  rhsBatch := []
  wf := dot_S200000x512_S512x1_S200000x1_1_0_0_1_n_n_wf

class Facts : Prop extends Facts₀ where

variable [Facts]
-- ==== Proof.DenseBlock.lean ====
/-
  The first dense layer's kernel region. The grid has 25 points; point t loads rows
  2000·t … 2000·t+1999 of the left array (a [2000, 512] block) and the whole [512, 512] right array,
  and writes back the block's product with it. Over the extended reals a change of float format is
  the identity and the product into a zero accumulator is the plain sum over the shared axis, so the
  block written at point t is rows 2000·t … of ONE array, `dense x w`, whose entry (r, j) is
  Σ_k x(r, k) · w(k, j); the 25 blocks tile the 50000 rows, so the result array ends as `dense x w`.
-/
import proofs.«151596_j66571993088847_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Idealize.ShloMosaic Idealize.ShloMosaic.TcCoe Idealize.SL.Sem
open Idealize.ShloMosaic.Pipeline (Dat)

/-! ## The product as a sum over the shared axis -/

/-- The index (r, k) of the left array, from an index (r, j) of the result and a position k on the shared axis. -/
abbrev rowAt (i : S50000x512.Idx) (k : Fin 512) : S50000x512.Idx := fun a => match a with
  | ⟨0, _⟩ => ⟨(i 0).val, (i 0).isLt⟩
  | ⟨1, _⟩ => ⟨k.val, k.isLt⟩
/-- The index (k, j) of the right array. -/
abbrev colAt (i : S50000x512.Idx) (k : Fin 512) : S512x512.Idx := fun a => match a with
  | ⟨0, _⟩ => ⟨k.val, k.isLt⟩
  | ⟨1, _⟩ => ⟨(i 1).val, (i 1).isLt⟩

/-- The [50000, 512] × [512, 512] product over the extended reals, entry by entry. -/
def dense (x : Vec Ideal S50000x512 .f32) (w : Vec Ideal S512x512 .f32) : Vec Ideal S50000x512 .f32 :=
  fun i => ∑ k : Fin 512, x (rowAt i k) * w (colAt i k)

/-! ## One block's product, read at an index of the block -/

abbrev rowAtB (y : S2000x512.Idx) (k : Fin 512) : S2000x512.Idx := fun a => match a with
  | ⟨0, _⟩ => ⟨(y 0).val, (y 0).isLt⟩
  | ⟨1, _⟩ => ⟨k.val, k.isLt⟩
abbrev colAtB (y : S2000x512.Idx) (k : Fin 512) : S512x512.Idx := fun a => match a with
  | ⟨0, _⟩ => ⟨k.val, k.isLt⟩
  | ⟨1, _⟩ => ⟨(y 1).val, (y 1).isLt⟩

theorem lhsB_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhsB_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhsB_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhsB_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- A [2000, 512] block times the [512, 512] array into a zero accumulator, at entry y of the block:
    the sum over the shared axis of the block's row against the array's column. -/
theorem blockProduct_apply {φ₁ φ₂ : FTy} (xb : FVec Ideal S2000x512 φ₁) (wb : FVec Ideal S512x512 φ₂) (y : S2000x512.Idx) :
    matmul (F := Ideal) dot_S2000x512_S512x512_S2000x512_1_0_0_1_n_n none xb wb (constant (F := Ideal) S2000x512 .f32 0x00000000#32) y
      = ∑ k : Fin 512, xb (rowAtB y k) * wb (colAtB y k) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx y ((ValueIdx.contrEquiv1 dot_S2000x512_S512x512_S2000x512_1_0_0_1_n_n 512 rfl rfl).symm k) = rowAtB y k := funext fun a => Fin.ext (by
    match a with
    | ⟨0, _⟩ => exact lhsB_0 _ _
    | ⟨1, _⟩ => exact (lhsB_1 _ _).trans hk)
  have er : dot_S2000x512_S512x512_S2000x512_1_0_0_1_n_n.rhsIdx y ((ValueIdx.contrEquiv1 dot_S2000x512_S512x512_S2000x512_1_0_0_1_n_n 512 rfl rfl).symm k) = colAtB y k := funext fun a => Fin.ext (by
    match a with
    | ⟨0, _⟩ => exact (rhsB_0 _ _).trans hk
    | ⟨1, _⟩ => exact rhsB_1 _ _)
  rw [el, er]

/-- The body's stored value (formats changed, then the product) at entry y of the block. -/
theorem pay0_apply (xb : Vec Ideal S2000x512 .f32) (wb : Vec Ideal S512x512 .f32) (y : S2000x512.Idx) :
    k0_pay1 (F := Ideal) xb wb y = ∑ k : Fin 512, xb (rowAtB y k) * wb (colAtB y k) := by
  unfold k0_pay1
  exact blockProduct_apply (φ₁ := .bf16) (φ₂ := .bf16) _ _ y

end Cert.KernelIdeal.Dense

end
-- ==== Proof.DenseRegion0.lean ====
/-
  Region 0 (a dense layer): the 25 blocks written back are the 25 row-blocks of `dense x w`, x and w the
  arrays the region finds at its two input windows; the blocks tile the 50000 rows, so the result array
  after the region is `dense x w`.
-/
import proofs.«151596_j66571993088847_1_alg».proof.Proof.DenseBlock

set_option maxRecDepth 16384

noncomputable section

namespace Cert.KernelIdeal.Dense0

open Cert.KernelIdeal Cert.KernelIdeal.Gen Cert.KernelIdeal.Dense Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 points: the left window and the output move together down the rows
    (block row t at point t), the right window stays at the origin, and no window moves along the columns. -/
theorem blockIndices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `dense x w`. -/
theorem flushed_eq (c : Dev nD) (t : Fin cfg0.N) :
    (dat0 V c).flushed 2 t = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x512) origin]
  obtain ⟨e0, e1, e2, e3, e4, e5⟩ := blockIndices t
  funext y
  show k0_pay1 (F := Ideal) (iblk0 V c 0 t) (iblk0 V c 1 t) y = dense (V c main_arg0) (V c main_arg3) (((cfg0.win 2).blk t).view.emb y)
  refine (pay0_apply _ _ y).trans ?_
  unfold dense
  refine Finset.sum_congr rfl fun k _ => ?_
  have hx : iblk0 V c 0 t (rowAtB y k) = V c main_arg0 (rowAt (((cfg0.win 2).blk t).view.emb y) k) := by
    show V c main_arg0 (((cfg0.win 0).blk t).view.emb (rowAtB y k)) = _
    refine congrArg (V c main_arg0) ?_
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 512 + 1 * k.val = k.val; omega
  have hw : iblk0 V c 1 t (colAtB y k) = V c main_arg3 (colAt (((cfg0.win 2).blk t).view.emb y) k) := by
    show V c main_arg3 (((cfg0.win 1).blk t).view.emb (colAtB y k)) = _
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 512 + 1 * (y 1).val = win0_2.index t (1 : Fin 2) * 512 + 1 * (y 1).val; omega
  rw [hx, hw]

/-- An index of the result array is in point t's block iff each coordinate is in the block's range on its axis. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v33).slice (win0_2.rect t)).set ↔ _
  rw [View.set_slice_whole, Rect.mem_set_unit]
  exact Iff.rfl

/-- Row r lies in the block of point r / 2000: the blocks cover the array. -/
theorem cover (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : grid0.N = 25 := N_0
  have ht : (i 0).val / 2000 < cfg0.N := by show (i 0).val / 2000 < grid0.N; omega
  obtain ⟨e0, e1, e2, e3, e4, e5⟩ := blockIndices ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 512 ≤ (i 1).val ∧ (i 1).val < win0_2.index ⟨(i 0).val / 2000, ht⟩ (1 : Fin 2) * 512 + 512
    rw [e5]; omega

/-- The result array after the region. -/
theorem final (c : Dev nD) : (dat0 V c).arrAt 2 cfg0.N = dense (V c main_arg0) (V c main_arg3) :=
  (dat0 V c).arrAt_eq_of_cover 2 _ (fun t _ => flushed_eq V c t) cover

end Cert.KernelIdeal.Dense0

end
-- ==== Proof.DenseRegion1.lean ====
/-
  Region 1 (a dense layer): the 25 blocks written back are the 25 row-blocks of `dense x w`, x and w the
  arrays the region finds at its two input windows; the blocks tile the 50000 rows, so the result array
  after the region is `dense x w`.
-/
import proofs.«151596_j66571993088847_1_alg».proof.Proof.DenseBlock

set_option maxRecDepth 16384

noncomputable section

namespace Cert.KernelIdeal.Dense1

open Cert.KernelIdeal Cert.KernelIdeal.Gen Cert.KernelIdeal.Dense Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The second layer's stored value at entry y of the block: a cast between equal shapes and the changes of
    format are identities, and what is left is the block's product. -/
theorem pay1_apply (xb : Vec Ideal S2000x512 .f32) (wb : Vec Ideal S512x512 .f32) (y : S2000x512.Idx) :
    k1_pay1 (F := Ideal) xb wb y = ∑ k : Fin 512, xb (rowAtB y k) * wb (colAtB y k) := by
  unfold k1_pay1
  refine (blockProduct_apply (φ₁ := .bf16) (φ₂ := .bf16) _ _ y).trans ?_
  refine Finset.sum_congr rfl fun k _ => ?_
  show shapeCast S2000x512 xb shapeCasts_S2000x512_S2000x512 (rowAtB y k) * wb (colAtB y k) = _
  rw [shapeCast_self]

theorem origin : (![0, 0] : Fin 2 → Nat) = fun _ => 0 := funext fun a => by fin_cases a <;> rfl

/-- The printed index maps over the 25 points: the left window and the output move together down the rows
    (block row t at point t), the right window stays at the origin, and no window moves along the columns. -/
theorem blockIndices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `dense x w`. -/
theorem flushed_eq (c : Dev nD) (t : Fin cfg1.N) :
    (dat1 V c).flushed 2 t = ((cfg1.win 2).blk t).view.read (Elt Ideal) (dense (V c main_v50) (V c main_arg5)) := by
  show (cfg1.win 2).cut (grid1.coords t) ((dat1 V c).after 2 t) = _
  rw [after1_2]
  unfold out1_2
  rw [View.canon_unit_zero origin]
  simp only [View.ld_unit_zero (S := S2000x512) origin, View.ld_unit_zero (S := S512x512) origin]
  obtain ⟨e0, e1, e2, e3, e4, e5⟩ := blockIndices t
  funext y
  show k1_pay1 (F := Ideal) (iblk1 V c 0 t) (iblk1 V c 1 t) y = dense (V c main_v50) (V c main_arg5) (((cfg1.win 2).blk t).view.emb y)
  refine (pay1_apply _ _ y).trans ?_
  unfold dense
  refine Finset.sum_congr rfl fun k _ => ?_
  have hx : iblk1 V c 0 t (rowAtB y k) = V c main_v50 (rowAt (((cfg1.win 2).blk t).view.emb y) k) := by
    show V c main_v50 (((cfg1.win 0).blk t).view.emb (rowAtB y k)) = _
    refine congrArg (V c main_v50) ?_
    funext a; apply Fin.ext
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 512 + 1 * k.val = k.val; omega
  have hw : iblk1 V c 1 t (colAtB y k) = V c main_arg5 (colAt (((cfg1.win 2).blk t).view.emb y) k) := by
    show V c main_arg5 (((cfg1.win 1).blk t).view.emb (colAtB y k)) = _
    refine congrArg (V c main_arg5) ?_
    funext a; apply Fin.ext
    match a with
    | ⟨0, _⟩ => show win1_1.index t (0 : Fin 2) * 512 + 1 * k.val = k.val; omega
    | ⟨1, _⟩ => show win1_1.index t (1 : Fin 2) * 512 + 1 * (y 1).val = win1_2.index t (1 : Fin 2) * 512 + 1 * (y 1).val; omega
  rw [hx, hw]

/-- An index of the result array is in point t's block iff each coordinate is in the block's range on its axis. -/
theorem mem_blk (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v51).slice (win1_2.rect t)).set ↔ _
  rw [View.set_slice_whole, Rect.mem_set_unit]
  exact Iff.rfl

/-- Row r lies in the block of point r / 2000: the blocks cover the array. -/
theorem cover (i : S50000x512.Idx) : ∃ t : Fin cfg1.N, (cfg1.win 2).flush t = true ∧ i ∈ ((cfg1.win 2).blk t).view.set := by
  have hi0 : (i 0).val < 50000 := (i 0).isLt
  have hi1 : (i 1).val < 512 := (i 1).isLt
  have hN : grid1.N = 25 := N_1
  have ht : (i 0).val / 2000 < cfg1.N := by show (i 0).val / 2000 < grid1.N; omega
  obtain ⟨e0, e1, e2, e3, e4, e5⟩ := blockIndices ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 512 ≤ (i 1).val ∧ (i 1).val < win1_2.index ⟨(i 0).val / 2000, ht⟩ (1 : Fin 2) * 512 + 512
    rw [e5]; omega

/-- The result array after the region. -/
theorem final (c : Dev nD) : (dat1 V c).arrAt 2 cfg1.N = dense (V c main_v50) (V c main_arg5) :=
  (dat1 V c).arrAt_eq_of_cover 2 _ (fun t _ => flushed_eq V c t) cover

end Cert.KernelIdeal.Dense1

end
-- ==== Proof.LinkSpec.lean ====
/-
  The link predictor, as functions of whole arrays over the extended reals.
  For a pair p: the hidden unit j is  max(Σ_k hl(p,k)·A(k,j) + Σ_k hr(p,k)·B(k,j) + b1(j), 0),
  the score is  Σ_j hidden(p,j)·w2(j) + b2,  and the result is  1 / (1 + e^(−score)).
  `linkOut` takes the first layer's weight as its two [512, 512] halves A, B and the biases as [1, 512] and
  [1, 1] arrays (what the kernel region is handed); `linkRef` takes the whole [1024, 512] weight W (A its rows
  0 … 511, B its rows 512 … 1023) and the biases as [512] and [1] arrays (what the reference computes from).
-/
import Idealize.ShloMosaic.Lib.ValueIdx
import Idealize.ShloMosaic.PureOps.Ideal.Laws

noncomputable section

namespace Cert.LinkSpec

open Idealize.ShloMosaic Idealize.ShloMosaic.ValueIdx

abbrev P512 : Shape := ⟨2, ![200000, 512]⟩
abbrev P1 : Shape := ⟨2, ![200000, 1]⟩
abbrev Pn : Shape := ⟨1, ![200000]⟩
abbrev Sq : Shape := ⟨2, ![512, 512]⟩
abbrev Tall : Shape := ⟨2, ![1024, 512]⟩
abbrev Row : Shape := ⟨2, ![1, 512]⟩
abbrev Col : Shape := ⟨2, ![512, 1]⟩
abbrev One : Shape := ⟨2, ![1, 1]⟩
abbrev V512 : Shape := ⟨1, ![512]⟩
abbrev V1 : Shape := ⟨1, ![1]⟩

/-- Hidden unit j of pair p, from the two halves of the first layer's weight and a [1, 512] bias. -/
def hidden (hl hr : P512.Idx → EReal) (A B : Sq.Idx → EReal) (b1 : Row.Idx → EReal) (p : Fin 200000) (j : Fin 512) : EReal :=
  max ((∑ k : Fin 512, hl (ix2 p k) * A (ix2 k j)) + (∑ k : Fin 512, hr (ix2 p k) * B (ix2 k j)) + b1 (ix2 (0 : Fin 1) j)) 0

/-- The kernel region's result array [200000, 1]. -/
def linkOut (hl hr : P512.Idx → EReal) (A B : Sq.Idx → EReal) (b1 : Row.Idx → EReal) (w2 : Col.Idx → EReal) (b2 : One.Idx → EReal) :
    P1.Idx → EReal := fun i =>
  Ideal.logistic ((∑ j : Fin 512, hidden hl hr A B b1 ⟨(i 0).val, (i 0).isLt⟩ j * w2 (ix2 j (0 : Fin 1))) + b2 (ix2 (0 : Fin 1) (0 : Fin 1)))

/-- Hidden unit j of pair p, from the whole [1024, 512] weight and a [512] bias. -/
def hiddenRef (hl hr : P512.Idx → EReal) (W : Tall.Idx → EReal) (b1 : V512.Idx → EReal) (p : Fin 200000) (j : Fin 512) : EReal :=
  max ((∑ k : Fin 512, hl (ix2 p k) * W (ix2 (⟨k.val, by have := k.isLt; omega⟩ : Fin 1024) j))
      + (∑ k : Fin 512, hr (ix2 p k) * W (ix2 (⟨512 + k.val, by have := k.isLt; omega⟩ : Fin 1024) j)) + b1 (ix1 j)) 0

/-- The reference's result array [200000]. -/
def linkRef (hl hr : P512.Idx → EReal) (W : Tall.Idx → EReal) (b1 : V512.Idx → EReal) (w2 : Col.Idx → EReal) (b2 : V1.Idx → EReal) :
    Pn.Idx → EReal := fun i =>
  Ideal.logistic ((∑ j : Fin 512, hiddenRef hl hr W b1 ⟨(i 0).val, (i 0).isLt⟩ j * w2 (ix2 j (0 : Fin 1))) + b2 (ix1 (0 : Fin 1)))

end Cert.LinkSpec

end
-- ==== Proof.LinkRegion.lean ====
/-
  The link predictor's kernel region. The grid has 100 points; point t loads rows 2000·t … 2000·t+1999 of
  the two gathered arrays (two [2000, 512] blocks), the two [512, 512] halves of the first layer's weight, the
  [1, 512] and [1, 1] biases and the [512, 1] second-layer weight, and writes back a [2000, 1] block. Over the
  extended reals the block written at point t is rows 2000·t … of ONE array, `LinkSpec.linkOut` of the seven
  arrays; the 100 blocks tile the 200000 rows, so the result array ends as that array.
-/
import proofs.«151596_j66571993088847_1_alg».proof.Proof.DenseBlock
import proofs.«151596_j66571993088847_1_alg».proof.Proof.LinkSpec

set_option maxRecDepth 16384

noncomputable section

namespace Cert.KernelIdeal.Link

open Cert.KernelIdeal Cert.KernelIdeal.Gen Cert.KernelIdeal.Dense Idealize.ShloMosaic Idealize.ShloMosaic.TcCoe Idealize.SL.Sem
open Idealize.ShloMosaic.Pipeline (Dat)

/-! ## The [2000, 512] × [512, 1] product, read at an index -/

/-- The index (r, j) of the hidden block, from an index (r, 0) of the [2000, 1] result and a position j on the shared axis. -/
abbrev rowAtC (y : S2000x1.Idx) (j : Fin 512) : S2000x512.Idx := fun a => match a with
  | ⟨0, _⟩ => ⟨(y 0).val, (y 0).isLt⟩
  | ⟨1, _⟩ => ⟨j.val, j.isLt⟩
/-- The index (j, 0) of the [512, 1] weight. -/
abbrev colAtC (y : S2000x1.Idx) (j : Fin 512) : S512x1.Idx := fun a => match a with
  | ⟨0, _⟩ => ⟨j.val, j.isLt⟩
  | ⟨1, _⟩ => ⟨(y 1).val, (y 1).isLt⟩

theorem lhsC_0 (i : S2000x1.Idx) (q : dot_S2000x512_S512x1_S2000x1_1_0_0_1_n_n.contr.Idx) :
    (dot_S2000x512_S512x1_S2000x1_1_0_0_1_n_n.lhsIdx i q 0).val = (i 0).val := by
  unfold DotDims.lhsIdx
  rw [dif_neg (show ¬(0 : Fin S2000x512.rank) ∈ dot_S2000x512_S512x1_S2000x1_1_0_0_1_n_n.lhsBatch by decide), dif_pos (show (0 : Fin S2000x512.rank) ∈ dot_S2000x512_S512x1_S2000x1_1_0_0_1_n_n.lhsNonContracting by decide)]
  rfl
theorem lhsC_1 (i : S2000x1.Idx) (q : dot_S2000x512_S512x1_S2000x1_1_0_0_1_n_n.contr.Idx) :
    (dot_S2000x512_S512x1_S2000x1_1_0_0_1_n_n.lhsIdx i q 1).val = (q ⟨0, by decide⟩).val :=
  dot_S2000x512_S512x1_S2000x1_1_0_0_1_n_n.lhsIdx_val_of_single rfl i q
theorem rhsC_0 (i : S2000x1.Idx) (q : dot_S2000x512_S512x1_S2000x1_1_0_0_1_n_n.contr.Idx) :
    (dot_S2000x512_S512x1_S2000x1_1_0_0_1_n_n.rhsIdx i q 0).val = (q ⟨0, by decide⟩).val :=
  dot_S2000x512_S512x1_S2000x1_1_0_0_1_n_n.rhsIdx_val_of_single rfl i q
theorem rhsC_1 (i : S2000x1.Idx) (q : dot_S2000x512_S512x1_S2000x1_1_0_0_1_n_n.contr.Idx) :
    (dot_S2000x512_S512x1_S2000x1_1_0_0_1_n_n.rhsIdx i q 1).val = (i 1).val := by
  unfold DotDims.rhsIdx
  rw [dif_neg (show ¬(1 : Fin S512x1.rank) ∈ dot_S2000x512_S512x1_S2000x1_1_0_0_1_n_n.rhsBatch by decide), dif_pos (show (1 : Fin S512x1.rank) ∈ dot_S2000x512_S512x1_S2000x1_1_0_0_1_n_n.rhsNonContracting by decide)]
  rfl

/-- A [2000, 512] block times the [512, 1] array into a zero accumulator, at entry y of the [2000, 1] result:
    the sum over the shared axis of the block's row against the array's one column. -/
theorem colProduct_apply {φ₁ φ₂ : FTy} (hb : FVec Ideal S2000x512 φ₁) (wb : FVec Ideal S512x1 φ₂) (y : S2000x1.Idx) :
    matmul (F := Ideal) dot_S2000x512_S512x1_S2000x1_1_0_0_1_n_n none hb wb (constant (F := Ideal) S2000x1 .f32 0x00000000#32) y
      = ∑ j : Fin 512, hb (rowAtC y j) * wb (colAtC y j) := by
  simp only [matmul]
  rw [Ideal.matmul_constant_zero_apply, ← Equiv.sum_comp (ValueIdx.contrEquiv1 dot_S2000x512_S512x1_S2000x1_1_0_0_1_n_n 512 rfl rfl).symm]
  refine Finset.sum_congr rfl fun j _ => ?_
  have hj := ValueIdx.contrEquiv1_symm_val dot_S2000x512_S512x1_S2000x1_1_0_0_1_n_n 512 rfl rfl j
  have el : dot_S2000x512_S512x1_S2000x1_1_0_0_1_n_n.lhsIdx y ((ValueIdx.contrEquiv1 dot_S2000x512_S512x1_S2000x1_1_0_0_1_n_n 512 rfl rfl).symm j) = rowAtC y j := funext fun a => Fin.ext (by
    match a with
    | ⟨0, _⟩ => exact lhsC_0 _ _
    | ⟨1, _⟩ => exact (lhsC_1 _ _).trans hj)
  have er : dot_S2000x512_S512x1_S2000x1_1_0_0_1_n_n.rhsIdx y ((ValueIdx.contrEquiv1 dot_S2000x512_S512x1_S2000x1_1_0_0_1_n_n 512 rfl rfl).symm j) = colAtC y j := funext fun a => Fin.ext (by
    match a with
    | ⟨0, _⟩ => exact (rhsC_0 _ _).trans hj
    | ⟨1, _⟩ => exact rhsC_1 _ _)
  rw [el, er]

/-- Entry (r, j) of the hidden block, then position k on the first layer's shared axis: the left operand's index (r, k). -/
theorem rowB_rowC (y : S2000x1.Idx) (j k : Fin 512) :
    rowAtB (rowAtC y j) k = ValueIdx.ix2 (⟨(y 0).val, (y 0).isLt⟩ : Fin 2000) k := by
  funext a
  match a with
  | ⟨0, _⟩ => rfl
  | ⟨1, _⟩ => rfl
/-- … and the right operand's index (k, j). -/
theorem colB_rowC (y : S2000x1.Idx) (j k : Fin 512) : colAtB (rowAtC y j) k = ValueIdx.ix2 k j := by
  funext a
  match a with
  | ⟨0, _⟩ => rfl
  | ⟨1, _⟩ => rfl
/-- The [2000, 1] result has one column, so the second-layer weight is read at (j, 0). -/
theorem colC_eq (y : S2000x1.Idx) (j : Fin 512) : colAtC y j = ValueIdx.ix2 j (0 : Fin 1) := by
  funext a
  match a with
  | ⟨0, _⟩ => rfl
  | ⟨1, _⟩ =>
    have h : (y 1).val < 1 := (y 1).isLt
    exact Fin.ext (show (y 1).val = 0 by omega)

/-! ## The body's stored value, read at an entry of the block -/

/-- The [1, 512] bias broadcast down the rows of a [2000, 512] block reads the bias at the entry's column. -/
theorem biasRow_apply (b : Vec Ideal S1x512 .f32) (z : S2000x512.Idx) :
    broadcastTo S2000x512 b broadcasts_S1x512_S2000x512 z = b (ValueIdx.ix2 (0 : Fin 1) (⟨(z 1).val, (z 1).isLt⟩ : Fin 512)) :=
  broadcastTo_apply b _ z _ (fun a => by
    match a with
    | ⟨0, _⟩ => rfl
    | ⟨1, _⟩ => rfl)

/-- The [1, 1] bias broadcast down the [2000, 1] result reads its one entry. -/
theorem biasOne_apply (b : Vec Ideal S1x1 .f32) (y : S2000x1.Idx) :
    broadcastTo S2000x1 b broadcasts_S1x1_S2000x1 y = b (ValueIdx.ix2 (0 : Fin 1) (0 : Fin 1)) :=
  broadcastTo_apply b _ y _ (fun a => by
    match a with
    | ⟨0, _⟩ => rfl
    | ⟨1, _⟩ => rfl)

/-- The body's stored value at entry y of the [2000, 1] block, from the seven blocks it loads: with r the entry's row,
    the hidden unit j is  max(Σ_k x0(r,k)·x2(k,j) + Σ_k x1(r,k)·x3(k,j) + x4(0,j), 0),  the score is
    Σ_j hidden(j)·x5(j,0) + x6(0,0),  and the value is the logistic function of the score. A change of float format
    and a shape cast between equal shapes are identities, the zero splat is 0, and each product into a zero
    accumulator is the plain sum over the shared axis. -/
theorem pay2_apply (x0 x1 : Vec Ideal S2000x512 .f32) (x2 x3 : Vec Ideal S512x512 .f32) (x4 : Vec Ideal S1x512 .f32)
    (x5 : Vec Ideal S512x1 .f32) (x6 : Vec Ideal S1x1 .f32) (y : S2000x1.Idx) :
    k2_pay1 (F := Ideal) x0 x1 x2 x3 x4 x5 x6 y
      = Ideal.logistic ((∑ j : Fin 512,
            max ((∑ k : Fin 512, x0 (ValueIdx.ix2 (⟨(y 0).val, (y 0).isLt⟩ : Fin 2000) k) * x2 (ValueIdx.ix2 k j))
                + (∑ k : Fin 512, x1 (ValueIdx.ix2 (⟨(y 0).val, (y 0).isLt⟩ : Fin 2000) k) * x3 (ValueIdx.ix2 k j))
                + x4 (ValueIdx.ix2 (0 : Fin 1) j)) 0
              * x5 (ValueIdx.ix2 j (0 : Fin 1)))
          + x6 (ValueIdx.ix2 (0 : Fin 1) (0 : Fin 1))) := by
  unfold k2_pay1
  simp only [shapeCast_self]
  show Ideal.logistic (matmul (F := Ideal) dot_S2000x512_S512x1_S2000x1_1_0_0_1_n_n none _ _ (constant (F := Ideal) S2000x1 .f32 0x00000000#32) y
      + broadcastTo S2000x1 x6 broadcasts_S1x1_S2000x1 y) = _
  rw [colProduct_apply, biasOne_apply]
  refine congrArg Ideal.logistic (congrArg₂ (· + ·) (Finset.sum_congr rfl fun j _ => ?_) rfl)
  refine congrArg₂ (· * ·) ?_ ?_
  · show max (matmul (F := Ideal) dot_S2000x512_S512x512_S2000x512_1_0_0_1_n_n none _ _ (constant (F := Ideal) S2000x512 .f32 0x00000000#32) (rowAtC y j)
          + matmul (F := Ideal) dot_S2000x512_S512x512_S2000x512_1_0_0_1_n_n none _ _ (constant (F := Ideal) S2000x512 .f32 0x00000000#32) (rowAtC y j)
          + broadcastTo S2000x512 x4 broadcasts_S1x512_S2000x512 (rowAtC y j)) (Ideal.ofBits .f32 0x00000000#32) = _
    rw [blockProduct_apply, blockProduct_apply, biasRow_apply, Ideal.ofBits_zero_f32]
    refine congrArg (max · 0) (congrArg₂ (· + ·) (congrArg₂ (· + ·) (Finset.sum_congr rfl fun k _ => ?_) (Finset.sum_congr rfl fun k _ => ?_)) rfl)
    · show x0 (rowAtB (rowAtC y j) k) * x2 (colAtB (rowAtC y j) k) = _
      rw [rowB_rowC, colB_rowC]
    · show x1 (rowAtB (rowAtC y j) k) * x3 (colAtB (rowAtC y j) k) = _
      rw [rowB_rowC, colB_rowC]
  · show x5 (colAtC y j) = _
    rw [colC_eq]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 100 points: the two gathered arrays' windows and the output move together down
    the rows (block row t at point t), the five parameter windows stay at the origin, and no window moves along
    the columns. -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## Each window's block at point t, read at an entry, is its array at the entry's place in the array

A block's coordinate in the array is the block index times the block size plus the coordinate inside the block. -/

/-- The left gathered array's block at point t holds rows 2000·t … of the array. -/
theorem blk0_apply (c : Dev nD) (t : Fin cfg2.N) (r : Fin 2000) (k : Fin 512) (p : Fin 200000) (hp : p.val = t.val * 2000 + r.val) :
    iblk2 V c 0 t (ValueIdx.ix2 r k) = V c main_v76 (ValueIdx.ix2 p k) := by
  obtain ⟨a0, a1, b0, b1, -, -, -, -, -, -, -, -, -, -, -, -⟩ := blockIndices t
  show V c main_v76 (((cfg2.win 0).blk t).view.emb (ValueIdx.ix2 r k)) = _
  refine congrArg (V c main_v76) ?_
  funext a; apply Fin.ext
  match a with
  | ⟨0, _⟩ => show win2_0.index t (0 : Fin 2) * 2000 + 1 * r.val = p.val; omega
  | ⟨1, _⟩ => show win2_0.index t (1 : Fin 2) * 512 + 1 * k.val = k.val; omega

/-- The right gathered array's block at point t holds rows 2000·t … of the array. -/
theorem blk1_apply (c : Dev nD) (t : Fin cfg2.N) (r : Fin 2000) (k : Fin 512) (p : Fin 200000) (hp : p.val = t.val * 2000 + r.val) :
    iblk2 V c 1 t (ValueIdx.ix2 r k) = V c main_v85 (ValueIdx.ix2 p k) := by
  obtain ⟨a0, a1, b0, b1, -, -, -, -, -, -, -, -, -, -, -, -⟩ := blockIndices t
  show V c main_v85 (((cfg2.win 1).blk t).view.emb (ValueIdx.ix2 r k)) = _
  refine congrArg (V c main_v85) ?_
  funext a; apply Fin.ext
  match a with
  | ⟨0, _⟩ => show win2_1.index t (0 : Fin 2) * 2000 + 1 * r.val = p.val; omega
  | ⟨1, _⟩ => show win2_1.index t (1 : Fin 2) * 512 + 1 * k.val = k.val; omega

/-- The first half of the first layer's weight is one block, the whole array, at every point. -/
theorem blk2_apply (c : Dev nD) (t : Fin cfg2.N) (k : Fin 512) (j : Fin 512) :
    iblk2 V c 2 t (ValueIdx.ix2 k j) = V c main_v86 (ValueIdx.ix2 k j) := by
  obtain ⟨-, -, -, -, c0, c1, d0, d1, e0, e1, f0, f1, g0, g1, -, -⟩ := blockIndices t
  show V c main_v86 (((cfg2.win 2).blk t).view.emb (ValueIdx.ix2 k j)) = _
  refine congrArg (V c main_v86) ?_
  funext a; apply Fin.ext
  match a with
  | ⟨0, _⟩ => show win2_2.index t (0 : Fin 2) * 512 + 1 * k.val = k.val; omega
  | ⟨1, _⟩ => show win2_2.index t (1 : Fin 2) * 512 + 1 * j.val = j.val; omega

/-- The second half of the first layer's weight is one block, the whole array, at every point. -/
theorem blk3_apply (c : Dev nD) (t : Fin cfg2.N) (k : Fin 512) (j : Fin 512) :
    iblk2 V c 3 t (ValueIdx.ix2 k j) = V c main_v87 (ValueIdx.ix2 k j) := by
  obtain ⟨-, -, -, -, c0, c1, d0, d1, e0, e1, f0, f1, g0, g1, -, -⟩ := blockIndices t
  show V c main_v87 (((cfg2.win 3).blk t).view.emb (ValueIdx.ix2 k j)) = _
  refine congrArg (V c main_v87) ?_
  funext a; apply Fin.ext
  match a with
  | ⟨0, _⟩ => show win2_3.index t (0 : Fin 2) * 512 + 1 * k.val = k.val; omega
  | ⟨1, _⟩ => show win2_3.index t (1 : Fin 2) * 512 + 1 * j.val = j.val; omega

/-- The [1, 512] bias is one block, the whole array, at every point. -/
theorem blk4_apply (c : Dev nD) (t : Fin cfg2.N) (z : Fin 1) (j : Fin 512) :
    iblk2 V c 4 t (ValueIdx.ix2 z j) = V c main_v88 (ValueIdx.ix2 z j) := by
  obtain ⟨-, -, -, -, c0, c1, d0, d1, e0, e1, f0, f1, g0, g1, -, -⟩ := blockIndices t
  show V c main_v88 (((cfg2.win 4).blk t).view.emb (ValueIdx.ix2 z j)) = _
  refine congrArg (V c main_v88) ?_
  funext a; apply Fin.ext
  match a with
  | ⟨0, _⟩ => show win2_4.index t (0 : Fin 2) * 1 + 1 * z.val = z.val; omega
  | ⟨1, _⟩ => show win2_4.index t (1 : Fin 2) * 512 + 1 * j.val = j.val; omega

/-- The [512, 1] second-layer weight is one block, the whole array, at every point. -/
theorem blk5_apply (c : Dev nD) (t : Fin cfg2.N) (j : Fin 512) (z : Fin 1) :
    iblk2 V c 5 t (ValueIdx.ix2 j z) = V c main_arg9 (ValueIdx.ix2 j z) := by
  obtain ⟨-, -, -, -, c0, c1, d0, d1, e0, e1, f0, f1, g0, g1, -, -⟩ := blockIndices t
  show V c main_arg9 (((cfg2.win 5).blk t).view.emb (ValueIdx.ix2 j z)) = _
  refine congrArg (V c main_arg9) ?_
  funext a; apply Fin.ext
  match a with
  | ⟨0, _⟩ => show win2_5.index t (0 : Fin 2) * 512 + 1 * j.val = j.val; omega
  | ⟨1, _⟩ => show win2_5.index t (1 : Fin 2) * 1 + 1 * z.val = z.val; omega

/-- The [1, 1] bias is one block, the whole array, at every point. -/
theorem blk6_apply (c : Dev nD) (t : Fin cfg2.N) (z : Fin 1) (z' : Fin 1) :
    iblk2 V c 6 t (ValueIdx.ix2 z z') = V c main_v89 (ValueIdx.ix2 z z') := by
  obtain ⟨-, -, -, -, c0, c1, d0, d1, e0, e1, f0, f1, g0, g1, -, -⟩ := blockIndices t
  show V c main_v89 (((cfg2.win 6).blk t).view.emb (ValueIdx.ix2 z z')) = _
  refine congrArg (V c main_v89) ?_
  funext a; apply Fin.ext
  match a with
  | ⟨0, _⟩ => show win2_6.index t (0 : Fin 2) * 1 + 1 * z.val = z.val; omega
  | ⟨1, _⟩ => show win2_6.index t (1 : Fin 2) * 1 + 1 * z'.val = z'.val; omega

/-- What point t writes back is block t of `linkOut` of the seven arrays. -/
theorem flushed_eq (c : Dev nD) (t : Fin cfg2.N) :
    (dat2 V c).flushed 7 t = ((cfg2.win 7).blk t).view.read (Elt Ideal)
      (Cert.LinkSpec.linkOut (V c main_v76) (V c main_v85) (V c main_v86) (V c main_v87) (V c main_v88) (V c main_arg9) (V c main_v89)) := by
  show (cfg2.win 7).cut (grid2.coords t) ((dat2 V c).after 7 t) = _
  rw [after2_7]
  unfold out2_7
  rw [View.canon_unit_zero origin]
  simp only [View.ld_unit_zero (S := S2000x512) origin, View.ld_unit_zero (S := S512x512) origin, View.ld_unit_zero (S := S1x512) origin,
    View.ld_unit_zero (S := S512x1) origin, View.ld_unit_zero (S := S1x1) origin]
  obtain ⟨-, -, -, -, -, -, -, -, -, -, -, -, -, -, h0, h1⟩ := blockIndices t
  funext y
  show k2_pay1 (F := Ideal) (iblk2 V c 0 t) (iblk2 V c 1 t) (iblk2 V c 2 t) (iblk2 V c 3 t) (iblk2 V c 4 t) (iblk2 V c 5 t) (iblk2 V c 6 t) y
      = Cert.LinkSpec.linkOut (V c main_v76) (V c main_v85) (V c main_v86) (V c main_v87) (V c main_v88) (V c main_arg9) (V c main_v89) (((cfg2.win 7).blk t).view.emb y)
  refine (pay2_apply _ _ _ _ _ _ _ y).trans ?_
  have hrow : ((((cfg2.win 7).blk t).view.emb y) 0).val = t.val * 2000 + (y 0).val := by
    show win2_7.index t (0 : Fin 2) * 2000 + 1 * (y 0).val = _
    omega
  unfold Cert.LinkSpec.linkOut Cert.LinkSpec.hidden
  refine congrArg Ideal.logistic (congrArg₂ (· + ·) (Finset.sum_congr rfl fun j _ => ?_) (blk6_apply V c t _ _))
  refine congrArg₂ (· * ·) (congrArg (max · 0) (congrArg₂ (· + ·) (congrArg₂ (· + ·)
    (Finset.sum_congr rfl fun k _ => ?_) (Finset.sum_congr rfl fun k _ => ?_)) (blk4_apply V c t _ j))) (blk5_apply V c t j _)
  · exact congrArg₂ (· * ·) (blk0_apply V c t _ k _ hrow) (blk2_apply V c t k j)
  · exact congrArg₂ (· * ·) (blk1_apply V c t _ k _ hrow) (blk3_apply V c t k j)

/-- An index of the result array is in point t's block iff each coordinate is in the block's range on its axis. -/
theorem mem_blk (t : Fin cfg2.N) (i : S200000x1.Idx) :
    i ∈ ((cfg2.win 7).blk t).view.set ↔ ∀ a : Fin 2, win2_7.index t a * S2000x1.size a ≤ (i a).val ∧ (i a).val < win2_7.index t a * S2000x1.size a + S2000x1.size a := by
  show i ∈ ((View.whole main_v90).slice (win2_7.rect t)).set ↔ _
  rw [View.set_slice_whole, Rect.mem_set_unit]
  exact Iff.rfl

/-- Row r lies in the block of point r / 2000: the blocks cover the array. -/
theorem cover (i : S200000x1.Idx) : ∃ t : Fin cfg2.N, (cfg2.win 7).flush t = true ∧ i ∈ ((cfg2.win 7).blk t).view.set := by
  have hi0 : (i 0).val < 200000 := (i 0).isLt
  have hi1 : (i 1).val < 1 := (i 1).isLt
  have hN : grid2.N = 100 := N_2
  have ht : (i 0).val / 2000 < cfg2.N := by show (i 0).val / 2000 < grid2.N; omega
  obtain ⟨-, -, -, -, -, -, -, -, -, -, -, -, -, -, h0, h1⟩ := blockIndices ⟨(i 0).val / 2000, ht⟩
  refine ⟨⟨(i 0).val / 2000, ht⟩, flush2_7 _, ?_⟩
  rw [mem_blk]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_7.index ⟨(i 0).val / 2000, ht⟩ (1 : Fin 2) * 1 ≤ (i 1).val ∧ (i 1).val < win2_7.index ⟨(i 0).val / 2000, ht⟩ (1 : Fin 2) * 1 + 1
    rw [h1]; omega

/-- The result array after the region. -/
theorem final (c : Dev nD) : (dat2 V c).arrAt 7 cfg2.N
    = Cert.LinkSpec.linkOut (V c main_v76) (V c main_v85) (V c main_v86) (V c main_v87) (V c main_v88) (V c main_arg9) (V c main_v89) := by
  exact (dat2 V c).arrAt_eq_of_cover 7 _ (fun t _ => flushed_eq V c t) cover

end Cert.KernelIdeal.Link

end
-- ==== Proof.HostStages.lean ====
/-
  The kernel program's host stretches between its three regions, each read as a function of the buffers it
  is entered with. The kernel's @main and the reference's apply the same host operations around the dense
  layers (the edge lists joined with the self loops, the degree normalisation, the gather of rows, the scaling,
  the scatter-add, the bias, the clamp at zero), so each stretch's results are the reference's own stages
  (`val_main_vN`: one definition per operation of the reference, composed) of the same inputs; buffers a
  stretch does not write keep their contents.
-/
import proofs.«151596_j66571993088847_1_alg».proof.Proof.Gen.KernelIdeal.Launch
import proofs.«151596_j66571993088847_1_alg».proof.Proof.RefRead
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.Read

variable {F : FTy → Type} [FloatOps F]

/-! ## Before the first dense layer: the sources and targets with the self loops appended, the normalisation
    coefficient of every edge; the arguments are not written -/

theorem beforeFirst_v3 (X : Valuation τ sig (Elt F)) :
    (after hostOps0_2 (after hostOps0_1 (after hostOps0 X))) (Proc.devRef .tc main_v3) = val_main_v3 (F := F) (X (Proc.devRef .tc main_arg1)) := by
  after_results_simp <;> (try simp only [TRef.ofBuf, TRef.toBuf, cast_eq]) <;> rfl

theorem beforeFirst_v7 (X : Valuation τ sig (Elt F)) :
    (after hostOps0_2 (after hostOps0_1 (after hostOps0 X))) (Proc.devRef .tc main_v7) = val_main_v7 (F := F) (X (Proc.devRef .tc main_arg1)) := by
  after_results_simp <;> (try simp only [TRef.ofBuf, TRef.toBuf, cast_eq]) <;> rfl

theorem beforeFirst_v32 (X : Valuation τ sig (Elt F)) :
    (after hostOps0_2 (after hostOps0_1 (after hostOps0 X))) (Proc.devRef .tc main_v32) = val_main_v32 (F := F) (X (Proc.devRef .tc main_arg1)) := by
  after_results_simp <;> (try simp only [TRef.ofBuf, TRef.toBuf, cast_eq]) <;> rfl

theorem beforeFirst_arg0 (X : Valuation τ sig (Elt F)) :
    (after hostOps0_2 (after hostOps0_1 (after hostOps0 X))) (Proc.devRef .tc main_arg0) = X (Proc.devRef .tc main_arg0) := by
  after_results_simp <;> rfl

theorem beforeFirst_arg2 (X : Valuation τ sig (Elt F)) :
    (after hostOps0_2 (after hostOps0_1 (after hostOps0 X))) (Proc.devRef .tc main_arg2) = X (Proc.devRef .tc main_arg2) := by
  after_results_simp <;> rfl

theorem beforeFirst_arg3 (X : Valuation τ sig (Elt F)) :
    (after hostOps0_2 (after hostOps0_1 (after hostOps0 X))) (Proc.devRef .tc main_arg3) = X (Proc.devRef .tc main_arg3) := by
  after_results_simp <;> rfl

theorem beforeFirst_arg4 (X : Valuation τ sig (Elt F)) :
    (after hostOps0_2 (after hostOps0_1 (after hostOps0 X))) (Proc.devRef .tc main_arg4) = X (Proc.devRef .tc main_arg4) := by
  after_results_simp <;> rfl

theorem beforeFirst_arg5 (X : Valuation τ sig (Elt F)) :
    (after hostOps0_2 (after hostOps0_1 (after hostOps0 X))) (Proc.devRef .tc main_arg5) = X (Proc.devRef .tc main_arg5) := by
  after_results_simp <;> rfl

theorem beforeFirst_arg6 (X : Valuation τ sig (Elt F)) :
    (after hostOps0_2 (after hostOps0_1 (after hostOps0 X))) (Proc.devRef .tc main_arg6) = X (Proc.devRef .tc main_arg6) := by
  after_results_simp <;> rfl

theorem beforeFirst_arg7 (X : Valuation τ sig (Elt F)) :
    (after hostOps0_2 (after hostOps0_1 (after hostOps0 X))) (Proc.devRef .tc main_arg7) = X (Proc.devRef .tc main_arg7) := by
  after_results_simp <;> rfl

theorem beforeFirst_arg8 (X : Valuation τ sig (Elt F)) :
    (after hostOps0_2 (after hostOps0_1 (after hostOps0 X))) (Proc.devRef .tc main_arg8) = X (Proc.devRef .tc main_arg8) := by
  after_results_simp <;> rfl

theorem beforeFirst_arg9 (X : Valuation τ sig (Elt F)) :
    (after hostOps0_2 (after hostOps0_1 (after hostOps0 X))) (Proc.devRef .tc main_arg9) = X (Proc.devRef .tc main_arg9) := by
  after_results_simp <;> rfl

theorem beforeFirst_arg10 (X : Valuation τ sig (Elt F)) :
    (after hostOps0_2 (after hostOps0_1 (after hostOps0 X))) (Proc.devRef .tc main_arg10) = X (Proc.devRef .tc main_arg10) := by
  after_results_simp <;> rfl

/-- The stretch before the first dense layer: from the edge list, the sources and targets with the self loops
    appended (`v3`, `v7`) and the normalisation coefficient of every edge (`v32`); every other argument is
    left as it was. -/
theorem beforeFirst (X : Valuation τ sig (Elt F)) :
    (after hostOps0_2 (after hostOps0_1 (after hostOps0 X))) (Proc.devRef .tc main_v3) = val_main_v3 (F := F) (X (Proc.devRef .tc main_arg1))
    ∧ (after hostOps0_2 (after hostOps0_1 (after hostOps0 X))) (Proc.devRef .tc main_v7) = val_main_v7 (F := F) (X (Proc.devRef .tc main_arg1))
    ∧ (after hostOps0_2 (after hostOps0_1 (after hostOps0 X))) (Proc.devRef .tc main_v32) = val_main_v32 (F := F) (X (Proc.devRef .tc main_arg1))
    ∧ (after hostOps0_2 (after hostOps0_1 (after hostOps0 X))) (Proc.devRef .tc main_arg0) = X (Proc.devRef .tc main_arg0)
    ∧ (after hostOps0_2 (after hostOps0_1 (after hostOps0 X))) (Proc.devRef .tc main_arg2) = X (Proc.devRef .tc main_arg2)
    ∧ (after hostOps0_2 (after hostOps0_1 (after hostOps0 X))) (Proc.devRef .tc main_arg3) = X (Proc.devRef .tc main_arg3)
    ∧ (after hostOps0_2 (after hostOps0_1 (after hostOps0 X))) (Proc.devRef .tc main_arg4) = X (Proc.devRef .tc main_arg4)
    ∧ (after hostOps0_2 (after hostOps0_1 (after hostOps0 X))) (Proc.devRef .tc main_arg5) = X (Proc.devRef .tc main_arg5)
    ∧ (after hostOps0_2 (after hostOps0_1 (after hostOps0 X))) (Proc.devRef .tc main_arg6) = X (Proc.devRef .tc main_arg6)
    ∧ (after hostOps0_2 (after hostOps0_1 (after hostOps0 X))) (Proc.devRef .tc main_arg7) = X (Proc.devRef .tc main_arg7)
    ∧ (after hostOps0_2 (after hostOps0_1 (after hostOps0 X))) (Proc.devRef .tc main_arg8) = X (Proc.devRef .tc main_arg8)
    ∧ (after hostOps0_2 (after hostOps0_1 (after hostOps0 X))) (Proc.devRef .tc main_arg9) = X (Proc.devRef .tc main_arg9)
    ∧ (after hostOps0_2 (after hostOps0_1 (after hostOps0 X))) (Proc.devRef .tc main_arg10) = X (Proc.devRef .tc main_arg10) :=
  ⟨beforeFirst_v3 X, beforeFirst_v7 X, beforeFirst_v32 X, beforeFirst_arg0 X, beforeFirst_arg2 X, beforeFirst_arg3 X, beforeFirst_arg4 X, beforeFirst_arg5 X, beforeFirst_arg6 X, beforeFirst_arg7 X, beforeFirst_arg8 X, beforeFirst_arg9 X, beforeFirst_arg10 X⟩

/-! ## After the first dense layer: gather along the sources, scale, scatter-add along the targets, add the bias,
    clamp at zero -/

theorem afterFirst_v50 (X : Valuation τ sig (Elt F)) (x0 : (⟨S50000x512, .f32⟩ : BufTy).Contents (Elt F)) (x1 : (⟨S2x400000, .i32⟩ : BufTy).Contents (Elt F)) (x3 : (⟨S512x512, .f32⟩ : BufTy).Contents (Elt F)) (x4 : (⟨S512, .f32⟩ : BufTy).Contents (Elt F))
    (h33 : X (Proc.devRef .tc main_v33) = val_main_v33 (F := F) x0 x3) (h3 : X (Proc.devRef .tc main_v3) = val_main_v3 (F := F) x1)
    (h7 : X (Proc.devRef .tc main_v7) = val_main_v7 (F := F) x1) (h32 : X (Proc.devRef .tc main_v32) = val_main_v32 (F := F) x1)
    (h4 : X (Proc.devRef .tc main_arg4) = x4) :
    (after hostOps1_1 (after hostOps1 X)) (Proc.devRef .tc main_v50) = val_main_v50 (F := F) x0 x1 x3 x4 := by
  after_results_simp
  rw [h33, h3, h7, h32, h4]
  (try simp only [TRef.ofBuf, TRef.toBuf, cast_eq]) <;> rfl

theorem afterFirst_v3 (X : Valuation τ sig (Elt F)) :
    (after hostOps1_1 (after hostOps1 X)) (Proc.devRef .tc main_v3) = X (Proc.devRef .tc main_v3) := by
  after_results_simp <;> rfl

theorem afterFirst_v7 (X : Valuation τ sig (Elt F)) :
    (after hostOps1_1 (after hostOps1 X)) (Proc.devRef .tc main_v7) = X (Proc.devRef .tc main_v7) := by
  after_results_simp <;> rfl

theorem afterFirst_v32 (X : Valuation τ sig (Elt F)) :
    (after hostOps1_1 (after hostOps1 X)) (Proc.devRef .tc main_v32) = X (Proc.devRef .tc main_v32) := by
  after_results_simp <;> rfl

theorem afterFirst_arg2 (X : Valuation τ sig (Elt F)) :
    (after hostOps1_1 (after hostOps1 X)) (Proc.devRef .tc main_arg2) = X (Proc.devRef .tc main_arg2) := by
  after_results_simp <;> rfl

theorem afterFirst_arg5 (X : Valuation τ sig (Elt F)) :
    (after hostOps1_1 (after hostOps1 X)) (Proc.devRef .tc main_arg5) = X (Proc.devRef .tc main_arg5) := by
  after_results_simp <;> rfl

theorem afterFirst_arg6 (X : Valuation τ sig (Elt F)) :
    (after hostOps1_1 (after hostOps1 X)) (Proc.devRef .tc main_arg6) = X (Proc.devRef .tc main_arg6) := by
  after_results_simp <;> rfl

theorem afterFirst_arg7 (X : Valuation τ sig (Elt F)) :
    (after hostOps1_1 (after hostOps1 X)) (Proc.devRef .tc main_arg7) = X (Proc.devRef .tc main_arg7) := by
  after_results_simp <;> rfl

theorem afterFirst_arg8 (X : Valuation τ sig (Elt F)) :
    (after hostOps1_1 (after hostOps1 X)) (Proc.devRef .tc main_arg8) = X (Proc.devRef .tc main_arg8) := by
  after_results_simp <;> rfl

theorem afterFirst_arg9 (X : Valuation τ sig (Elt F)) :
    (after hostOps1_1 (after hostOps1 X)) (Proc.devRef .tc main_arg9) = X (Proc.devRef .tc main_arg9) := by
  after_results_simp <;> rfl

theorem afterFirst_arg10 (X : Valuation τ sig (Elt F)) :
    (after hostOps1_1 (after hostOps1 X)) (Proc.devRef .tc main_arg10) = X (Proc.devRef .tc main_arg10) := by
  after_results_simp <;> rfl

/-- The stretch after the first dense layer: the rows of its result gathered along the sources, scaled by the
    edge coefficients, scatter-added along the targets, the bias added and the clamp at zero — the reference's
    stage `v50` when the stretch is entered with the reference's stages in its input buffers. -/
theorem afterFirst (X : Valuation τ sig (Elt F)) (x0 : (⟨S50000x512, .f32⟩ : BufTy).Contents (Elt F)) (x1 : (⟨S2x400000, .i32⟩ : BufTy).Contents (Elt F)) (x3 : (⟨S512x512, .f32⟩ : BufTy).Contents (Elt F)) (x4 : (⟨S512, .f32⟩ : BufTy).Contents (Elt F))
    (h33 : X (Proc.devRef .tc main_v33) = val_main_v33 (F := F) x0 x3) (h3 : X (Proc.devRef .tc main_v3) = val_main_v3 (F := F) x1)
    (h7 : X (Proc.devRef .tc main_v7) = val_main_v7 (F := F) x1) (h32 : X (Proc.devRef .tc main_v32) = val_main_v32 (F := F) x1)
    (h4 : X (Proc.devRef .tc main_arg4) = x4) :
    (after hostOps1_1 (after hostOps1 X)) (Proc.devRef .tc main_v50) = val_main_v50 (F := F) x0 x1 x3 x4
    ∧ (after hostOps1_1 (after hostOps1 X)) (Proc.devRef .tc main_v3) = X (Proc.devRef .tc main_v3)
    ∧ (after hostOps1_1 (after hostOps1 X)) (Proc.devRef .tc main_v7) = X (Proc.devRef .tc main_v7)
    ∧ (after hostOps1_1 (after hostOps1 X)) (Proc.devRef .tc main_v32) = X (Proc.devRef .tc main_v32)
    ∧ (after hostOps1_1 (after hostOps1 X)) (Proc.devRef .tc main_arg2) = X (Proc.devRef .tc main_arg2)
    ∧ (after hostOps1_1 (after hostOps1 X)) (Proc.devRef .tc main_arg5) = X (Proc.devRef .tc main_arg5)
    ∧ (after hostOps1_1 (after hostOps1 X)) (Proc.devRef .tc main_arg6) = X (Proc.devRef .tc main_arg6)
    ∧ (after hostOps1_1 (after hostOps1 X)) (Proc.devRef .tc main_arg7) = X (Proc.devRef .tc main_arg7)
    ∧ (after hostOps1_1 (after hostOps1 X)) (Proc.devRef .tc main_arg8) = X (Proc.devRef .tc main_arg8)
    ∧ (after hostOps1_1 (after hostOps1 X)) (Proc.devRef .tc main_arg9) = X (Proc.devRef .tc main_arg9)
    ∧ (after hostOps1_1 (after hostOps1 X)) (Proc.devRef .tc main_arg10) = X (Proc.devRef .tc main_arg10) :=
  ⟨afterFirst_v50 X x0 x1 x3 x4 h33 h3 h7 h32 h4, afterFirst_v3 X, afterFirst_v7 X, afterFirst_v32 X, afterFirst_arg2 X, afterFirst_arg5 X, afterFirst_arg6 X, afterFirst_arg7 X, afterFirst_arg8 X, afterFirst_arg9 X, afterFirst_arg10 X⟩

/-! ## After the second dense layer: the same message passing with the second bias, its rows gathered at the two
    columns of the pair list, the halves of the link predictor's first weight, the biases recast -/

theorem afterSecond_v76 (X : Valuation τ sig (Elt F)) (x0 : (⟨S50000x512, .f32⟩ : BufTy).Contents (Elt F)) (x1 : (⟨S2x400000, .i32⟩ : BufTy).Contents (Elt F)) (x2 : (⟨S2x200000, .i32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))
    (h51 : X (Proc.devRef .tc main_v51) = val_main_v51 (F := F) x0 x1 x3 x4 x5) (h3 : X (Proc.devRef .tc main_v3) = val_main_v3 (F := F) x1)
    (h7 : X (Proc.devRef .tc main_v7) = val_main_v7 (F := F) x1) (h32 : X (Proc.devRef .tc main_v32) = val_main_v32 (F := F) x1)
    (h6 : X (Proc.devRef .tc main_arg6) = x6) (h2 : X (Proc.devRef .tc main_arg2) = x2) :
    (after hostOps2 X) (Proc.devRef .tc main_v76) = val_main_v76 (F := F) x0 x1 x2 x3 x4 x5 x6 := by
  after_results_simp
  rw [h51, h3, h7, h32, h6, h2]
  rfl

theorem afterSecond_v85 (X : Valuation τ sig (Elt F)) (x0 : (⟨S50000x512, .f32⟩ : BufTy).Contents (Elt F)) (x1 : (⟨S2x400000, .i32⟩ : BufTy).Contents (Elt F)) (x2 : (⟨S2x200000, .i32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))
    (h51 : X (Proc.devRef .tc main_v51) = val_main_v51 (F := F) x0 x1 x3 x4 x5) (h3 : X (Proc.devRef .tc main_v3) = val_main_v3 (F := F) x1)
    (h7 : X (Proc.devRef .tc main_v7) = val_main_v7 (F := F) x1) (h32 : X (Proc.devRef .tc main_v32) = val_main_v32 (F := F) x1)
    (h6 : X (Proc.devRef .tc main_arg6) = x6) (h2 : X (Proc.devRef .tc main_arg2) = x2) :
    (after hostOps2 X) (Proc.devRef .tc main_v85) = val_main_v85 (F := F) x0 x1 x2 x3 x4 x5 x6 := by
  after_results_simp
  rw [h51, h3, h7, h32, h6, h2]
  rfl

theorem afterSecond_v86 (X : Valuation τ sig (Elt F)) :
    (after hostOps2 X) (Proc.devRef .tc main_v86) = extractStridedSlice S512x512 ![0, 0] (X (Proc.devRef .tc main_arg7)) slices_S1024x512_S512x512_0_0 := by
  after_results_simp <;> rfl

theorem afterSecond_v87 (X : Valuation τ sig (Elt F)) :
    (after hostOps2 X) (Proc.devRef .tc main_v87) = extractStridedSlice S512x512 ![512, 0] (X (Proc.devRef .tc main_arg7)) slices_S1024x512_S512x512_512_0 := by
  after_results_simp <;> rfl

theorem afterSecond_v88 (X : Valuation τ sig (Elt F)) :
    (after hostOps2 X) (Proc.devRef .tc main_v88) = shapeCast S1x512 (X (Proc.devRef .tc main_arg8)) shapeCasts_S512_S1x512 := by
  after_results_simp <;> rfl

theorem afterSecond_v89 (X : Valuation τ sig (Elt F)) :
    (after hostOps2 X) (Proc.devRef .tc main_v89) = shapeCast S1x1 (X (Proc.devRef .tc main_arg10)) shapeCasts_S1_S1x1 := by
  after_results_simp <;> rfl

theorem afterSecond_arg9 (X : Valuation τ sig (Elt F)) :
    (after hostOps2 X) (Proc.devRef .tc main_arg9) = X (Proc.devRef .tc main_arg9) := by
  after_results_simp <;> rfl

/-- The stretch after the second dense layer: the same message passing with the second bias (stage `v67`), its rows
    gathered at the two columns of the pair list (`v76`, `v85`), the two halves of the link predictor's first weight,
    and its biases recast. -/
theorem afterSecond (X : Valuation τ sig (Elt F)) (x0 : (⟨S50000x512, .f32⟩ : BufTy).Contents (Elt F)) (x1 : (⟨S2x400000, .i32⟩ : BufTy).Contents (Elt F)) (x2 : (⟨S2x200000, .i32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))
    (h51 : X (Proc.devRef .tc main_v51) = val_main_v51 (F := F) x0 x1 x3 x4 x5) (h3 : X (Proc.devRef .tc main_v3) = val_main_v3 (F := F) x1)
    (h7 : X (Proc.devRef .tc main_v7) = val_main_v7 (F := F) x1) (h32 : X (Proc.devRef .tc main_v32) = val_main_v32 (F := F) x1)
    (h6 : X (Proc.devRef .tc main_arg6) = x6) (h2 : X (Proc.devRef .tc main_arg2) = x2) :
    (after hostOps2 X) (Proc.devRef .tc main_v76) = val_main_v76 (F := F) x0 x1 x2 x3 x4 x5 x6
    ∧ (after hostOps2 X) (Proc.devRef .tc main_v85) = val_main_v85 (F := F) x0 x1 x2 x3 x4 x5 x6
    ∧ (after hostOps2 X) (Proc.devRef .tc main_v86) = extractStridedSlice S512x512 ![0, 0] (X (Proc.devRef .tc main_arg7)) slices_S1024x512_S512x512_0_0
    ∧ (after hostOps2 X) (Proc.devRef .tc main_v87) = extractStridedSlice S512x512 ![512, 0] (X (Proc.devRef .tc main_arg7)) slices_S1024x512_S512x512_512_0
    ∧ (after hostOps2 X) (Proc.devRef .tc main_v88) = shapeCast S1x512 (X (Proc.devRef .tc main_arg8)) shapeCasts_S512_S1x512
    ∧ (after hostOps2 X) (Proc.devRef .tc main_v89) = shapeCast S1x1 (X (Proc.devRef .tc main_arg10)) shapeCasts_S1_S1x1
    ∧ (after hostOps2 X) (Proc.devRef .tc main_arg9) = X (Proc.devRef .tc main_arg9) :=
  ⟨afterSecond_v76 X x0 x1 x2 x3 x4 x5 x6 h51 h3 h7 h32 h6 h2, afterSecond_v85 X x0 x1 x2 x3 x4 x5 x6 h51 h3 h7 h32 h6 h2,
    afterSecond_v86 X, afterSecond_v87 X, afterSecond_v88 X, afterSecond_v89 X, afterSecond_arg9 X⟩

/-- The last host operation drops the result's unit axis. -/
theorem atReturn (X : Valuation τ sig (Elt F)) :
    (after hostOps3 X) (Proc.devRef .tc main_v91) = shapeCast S200000 (X (Proc.devRef .tc main_v90)) shapeCasts_S200000x1_S200000 := by
  after_results_simp <;> rfl

end Cert.KernelIdeal.HostStages

end
-- ==== Proof.RefLink.lean ====
/-
  The reference's last stretch read at an index: from the two gathered [200000, 512] arrays on, the reference
  joins them along the columns, multiplies by the whole [1024, 512] weight, adds the bias, clamps at zero,
  multiplies by the [512, 1] weight, adds the bias, drops the unit axis, and applies 1 / (1 + e^(−·)) written
  as negate, exponential, add, divide. A sum over the 1024 joined columns is the sum over the first 512 plus
  the sum over the last 512, and over the extended reals 1 / (1 + e^(−x)) is the logistic function at every x,
  so the result is `LinkSpec.linkRef` of the two gathered arrays and the four parameter arrays.
-/
import proofs.«151596_j66571993088847_1_alg».proof.Proof.RefRead
import proofs.«151596_j66571993088847_1_alg».proof.Proof.LinkSpec
import Idealize.ShloMosaic.Lib.IdealHost
import Mathlib.Algebra.BigOperators.Fin

set_option maxRecDepth 16384

noncomputable section

namespace Cert.ReferenceIdeal.Link

open Cert.ReferenceIdeal Cert.ReferenceIdeal.Read Idealize.ShloMosaic Idealize.ShloMosaic.TcCoe
open Idealize.ShloMosaic.ValueIdx
open scoped BigOperators

/-! ## A sum over the 1024 joined columns is the sum over each half -/

/-- Over any additive commutative monoid, a sum over `Fin 1024` is the sum over the first 512 indices plus the sum
    over the last 512. -/
theorem sum_halves {M : Type*} [AddCommMonoid M] (f : Fin 1024 → M) :
    ∑ k : Fin 1024, f k
      = (∑ k : Fin 512, f (⟨k.val, by have := k.isLt; omega⟩ : Fin 1024))
        + ∑ k : Fin 512, f (⟨512 + k.val, by have := k.isLt; omega⟩ : Fin 1024) :=
  Fin.sum_univ_add (a := 512) (b := 512) f

/-! ## The joined array at a column of either half -/

/-- A column below 512 of the joined array is that column of the first piece. -/
theorem concat_left (hl hr : (⟨S200000x512, .f32⟩ : BufTy).Contents (Elt Ideal))
    (h : Shape.Concatenates [S200000x512, S200000x512] S200000x1024 1) (p : Fin 200000) (k : Fin 512) :
    concatenate S200000x1024 1 [⟨S200000x512, hl⟩, ⟨S200000x512, hr⟩] h
        (ix2 p (⟨k.val, by have := k.isLt; omega⟩ : Fin 1024))
      = hl (ix2 p k) :=
  concatenate_pair_apply_left (t := S200000x1024) (s₁ := S200000x512) (s₂ := S200000x512) 1 hl hr
    h (ix2 p (⟨k.val, by have := k.isLt; omega⟩ : Fin 1024)) rfl (ix2 p k)
    (fun b => match b with
      | ⟨0, _⟩ => rfl
      | ⟨1, _⟩ => rfl)

/-- Column 512 + k of the joined array is column k of the second piece. -/
theorem concat_right (hl hr : (⟨S200000x512, .f32⟩ : BufTy).Contents (Elt Ideal))
    (h : Shape.Concatenates [S200000x512, S200000x512] S200000x1024 1) (p : Fin 200000) (k : Fin 512) :
    concatenate S200000x1024 1 [⟨S200000x512, hl⟩, ⟨S200000x512, hr⟩] h
        (ix2 p (⟨512 + k.val, by have := k.isLt; omega⟩ : Fin 1024))
      = hr (ix2 p k) :=
  concatenate_pair_apply_right (t := S200000x1024) (s₁ := S200000x512) (s₂ := S200000x512) 1 hl hr
    h (ix2 p (⟨512 + k.val, by have := k.isLt; omega⟩ : Fin 1024)) rfl rfl (ix2 p k)
    (fun b => match b with
      | ⟨0, _⟩ => fun _ => rfl
      | ⟨1, _⟩ => fun h => absurd rfl h)
    (Nat.add_comm k.val 512)

/-- The reference's joined array at a column of the first half. -/
theorem joined_apply_left (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (p : Fin 200000) (k : Fin 512) :
    val_main_v86 (F := Ideal) x0 x1 x2 x3 x4 x5 x6 (ix2 p (⟨k.val, by have := k.isLt; omega⟩ : Fin 1024))
      = val_main_v76 (F := Ideal) x0 x1 x2 x3 x4 x5 x6 (ix2 p k) := by
  unfold val_main_v86
  exact concat_left _ _ _ p k

/-- The reference's joined array at a column of the second half. -/
theorem joined_apply_right (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (p : Fin 200000) (k : Fin 512) :
    val_main_v86 (F := Ideal) x0 x1 x2 x3 x4 x5 x6 (ix2 p (⟨512 + k.val, by have := k.isLt; omega⟩ : Fin 1024))
      = val_main_v85 (F := Ideal) x0 x1 x2 x3 x4 x5 x6 (ix2 p k) := by
  unfold val_main_v86
  exact concat_right _ _ _ p k

/-! ## The hidden layer -/

/-- The first product at (p, j): the sum over the first piece's columns against the weight's rows 0 … 511 plus the
    sum over the second piece's columns against its rows 512 … 1023. -/
theorem first_product (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S1024x512, .f32⟩ : BufTy).Contents (Elt Ideal)) (p : Fin 200000) (j : Fin 512) :
    val_main_v87 (F := Ideal) x0 x1 x2 x3 x4 x5 x6 x7 (ix2 p j)
      = (∑ k : Fin 512, val_main_v76 (F := Ideal) x0 x1 x2 x3 x4 x5 x6 (ix2 p k) * x7 (ix2 (⟨k.val, by have := k.isLt; omega⟩ : Fin 1024) j))
        + ∑ k : Fin 512, val_main_v85 (F := Ideal) x0 x1 x2 x3 x4 x5 x6 (ix2 p k) * x7 (ix2 (⟨512 + k.val, by have := k.isLt; omega⟩ : Fin 1024) j) := by
  have el : ∀ k : Fin 1024, lidx_main_v87 (ix2 p j) k = ix2 p k := fun k =>
    funext fun a => Fin.ext (by match a with | ⟨0, _⟩ => rfl | ⟨1, _⟩ => rfl)
  have er : ∀ k : Fin 1024, ridx_main_v87 (ix2 p j) k = ix2 k j := fun k =>
    funext fun a => Fin.ext (by match a with | ⟨0, _⟩ => rfl | ⟨1, _⟩ => rfl)
  rw [val_main_v87_apply]
  refine (sum_halves _).trans ?_
  exact congrArg₂ (· + ·)
    (Finset.sum_congr rfl fun k _ => by rw [el, er, joined_apply_left])
    (Finset.sum_congr rfl fun k _ => by rw [el, er, joined_apply_right])

/-- The [512] bias broadcast over the pairs reads the bias at the column. -/
theorem bias1_apply (x8 : (⟨S512, .f32⟩ : BufTy).Contents (Elt Ideal)) (p : Fin 200000) (j : Fin 512) :
    val_main_v89 (F := Ideal) x8 (ix2 p j) = x8 (ix1 j) := by
  rw [val_main_v89_apply, val_main_v88_apply]
  exact congrArg x8 (funext fun a => Fin.ext (by match a with | ⟨0, _⟩ => rfl))

/-- The zero splat the clamp compares with is the extended real zero. -/
theorem zero_splat_apply (i : S200000x512.Idx) : val_main_call2_v0 (F := Ideal) i = 0 := by
  rw [val_main_call2_v0_apply, val_main_call2_cst_apply, Ideal.ofBits_def, Ideal.ofBits_zero_f32]

/-- The reference's hidden unit j of pair p is `LinkSpec.hiddenRef` of the two gathered arrays. -/
theorem hidden_eq (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S1024x512, .f32⟩ : BufTy).Contents (Elt Ideal))
    (x8 : (⟨S512, .f32⟩ : BufTy).Contents (Elt Ideal)) (p : Fin 200000) (j : Fin 512) :
    val_main_v91 (F := Ideal) x0 x1 x2 x3 x4 x5 x6 x7 x8 (ix2 p j)
      = Cert.LinkSpec.hiddenRef (val_main_v76 (F := Ideal) x0 x1 x2 x3 x4 x5 x6) (val_main_v85 (F := Ideal) x0 x1 x2 x3 x4 x5 x6) x7 x8 p j := by
  rw [val_main_v91_apply, val_main_v90_apply, first_product, bias1_apply, zero_splat_apply,
    Ideal.maximumf_def, Ideal.addf_def]
  rfl

/-! ## The score -/

/-- The [1] bias broadcast over the pairs reads the bias's one element. -/
theorem bias2_apply (x10 : (⟨S1, .f32⟩ : BufTy).Contents (Elt Ideal)) (i : S200000x1.Idx) :
    val_main_v94 (F := Ideal) x10 i = x10 (ix1 (0 : Fin 1)) := by
  rw [val_main_v94_apply, val_main_v93_apply]
  exact congrArg x10 (funext fun a => Fin.ext (by match a with | ⟨0, _⟩ => rfl))

/-- The reference's score of pair p: the hidden units against the [512, 1] weight, plus the bias. -/
theorem score_eq (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S1024x512, .f32⟩ : BufTy).Contents (Elt Ideal))
    (x8 : (⟨S512, .f32⟩ : BufTy).Contents (Elt Ideal)) (x9 : (⟨S512x1, .f32⟩ : BufTy).Contents (Elt Ideal))
    (x10 : (⟨S1, .f32⟩ : BufTy).Contents (Elt Ideal)) (p : Fin 200000) :
    val_main_v95 (F := Ideal) x0 x1 x2 x3 x4 x5 x6 x7 x8 x9 x10 (ix2 p (0 : Fin 1))
      = (∑ j : Fin 512, Cert.LinkSpec.hiddenRef (val_main_v76 (F := Ideal) x0 x1 x2 x3 x4 x5 x6) (val_main_v85 (F := Ideal) x0 x1 x2 x3 x4 x5 x6) x7 x8 p j
            * x9 (ix2 j (0 : Fin 1)))
        + x10 (ix1 (0 : Fin 1)) := by
  have el : ∀ j : Fin 512, lidx_main_v92 (ix2 p (0 : Fin 1)) j = ix2 p j := fun j =>
    funext fun a => Fin.ext (by match a with | ⟨0, _⟩ => rfl | ⟨1, _⟩ => rfl)
  have er : ∀ j : Fin 512, ridx_main_v92 (ix2 p (0 : Fin 1)) j = ix2 j (0 : Fin 1) := fun j =>
    funext fun a => Fin.ext (by match a with | ⟨0, _⟩ => rfl | ⟨1, _⟩ => rfl)
  rw [val_main_v95_apply, val_main_v92_apply, bias2_apply]
  refine (Ideal.addf_def _ _).trans ?_
  exact congrArg (· + x10 (ix1 (0 : Fin 1))) (Finset.sum_congr rfl fun j _ => by rw [el, er, hidden_eq])

/-! ## The result -/

/-- The one splat is the extended real one. -/
theorem one_splat_apply (i : S200000.Idx) : val_main_v99 (F := Ideal) i = 1 := by
  rw [val_main_v99_apply, val_main_cst_17_apply, Ideal.ofBits_def, Ideal.ofBits_one_f32]

/-- The other one splat likewise. -/
theorem one_splat_apply' (i : S200000.Idx) : val_main_v101 (F := Ideal) i = 1 := by
  rw [val_main_v101_apply, val_main_cst_18_apply, Ideal.ofBits_def, Ideal.ofBits_one_f32]

/-- Dropping the unit axis reads pair p's score. -/
theorem flat_idx (i : S200000.Idx) :
    idx_main_v96 i = ix2 (⟨(i 0).val, (i 0).isLt⟩ : Fin 200000) (0 : Fin 1) :=
  funext fun a => Fin.ext (by
    match a with
    | ⟨0, _⟩ => exact Nat.div_one _
    | ⟨1, _⟩ => rfl)

/-- The reference's result as the link predictor of its two gathered arrays. -/
theorem result_eq (x0 : (⟨S50000x512, .f32⟩ : BufTy).Contents (Elt Ideal)) (x1 : (⟨S2x400000, .i32⟩ : BufTy).Contents (Elt Ideal))
    (x2 : (⟨S2x200000, .i32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S1024x512, .f32⟩ : BufTy).Contents (Elt Ideal))
    (x8 : (⟨S512, .f32⟩ : BufTy).Contents (Elt Ideal)) (x9 : (⟨S512x1, .f32⟩ : BufTy).Contents (Elt Ideal))
    (x10 : (⟨S1, .f32⟩ : BufTy).Contents (Elt Ideal)) :
    val_main_v102 (F := Ideal) x0 x1 x2 x3 x4 x5 x6 x7 x8 x9 x10
      = Cert.LinkSpec.linkRef (val_main_v76 (F := Ideal) x0 x1 x2 x3 x4 x5 x6) (val_main_v85 (F := Ideal) x0 x1 x2 x3 x4 x5 x6) x7 x8 x9 x10 := by
  funext i
  rw [val_main_v102_apply, val_main_v100_apply, val_main_v98_apply, val_main_v97_apply, val_main_v96_apply,
    one_splat_apply, one_splat_apply', flat_idx]
  simp only [score_eq]
  simp only [Ideal.hostDivf_def, Ideal.addf_def, Ideal.hostUnary_exp_def, Ideal.hostNegf_def, Ideal.negf_def]
  unfold Cert.LinkSpec.linkRef Ideal.logistic
  rfl

end Cert.ReferenceIdeal.Link

end
-- ==== Proof.LinkBridge.lean ====
/-
  The kernel is handed the first layer's weight as its two [512, 512] halves (rows 0 … 511 and 512 … 1023 of
  the [1024, 512] array), the biases recast as [1, 512] and [1, 1] arrays, and its [200000, 1] result is recast
  to [200000]. Read at an index these are reads of the whole arrays, so the recast result of `linkOut` on the
  halves is `linkRef` on the whole weight.
-/
import proofs.«151596_j66571993088847_1_alg».proof.Proof.LinkSpec
import Idealize.ShloMosaic.Lib.Pipeline.Value
import Idealize.ShloMosaic.Lib.ValueLayout

noncomputable section

namespace Cert.LinkSpec

open Idealize.ShloMosaic Idealize.ShloMosaic.ValueIdx

/-- The hidden units agree: the two halves read at (k, j) are the whole weight at (k, j) and (512 + k, j), and the
    recast bias at (0, j) is the bias at j. -/
theorem hidden_halves (hl hr : P512.Idx → EReal) (W : Tall.Idx → EReal) (b1 : V512.Idx → EReal)
    (hs0 : Tall.Slices ![0, 0] Sq) (hs1 : Tall.Slices ![512, 0] Sq) (hc1 : V512.ShapeCasts Row) (p : Fin 200000) (j : Fin 512) :
    hidden hl hr (extractStridedSlice Sq ![0, 0] W hs0) (extractStridedSlice Sq ![512, 0] W hs1) (shapeCast Row b1 hc1) p j
      = hiddenRef hl hr W b1 p j := by
  unfold hidden hiddenRef
  have eA : ∀ k : Fin 512, extractStridedSlice Sq ![0, 0] W hs0 (ix2 k j) = W (ix2 (⟨k.val, by have := k.isLt; omega⟩ : Fin 1024) j) :=
    fun k => slice2_axis0_apply 0 W hs0 k j _ (Nat.zero_add _).symm
  have eB : ∀ k : Fin 512, extractStridedSlice Sq ![512, 0] W hs1 (ix2 k j) = W (ix2 (⟨512 + k.val, by have := k.isLt; omega⟩ : Fin 1024) j) :=
    fun k => slice2_axis0_apply 512 W hs1 k j _ rfl
  have eb : shapeCast Row b1 hc1 (ix2 (0 : Fin 1) j) = b1 (ix1 j) := shapeCast_a_1a_apply b1 hc1 0 j
  simp only [eA, eB, eb]

/-- The recast result of the kernel's link predictor on the halves is the reference's on the whole weight. -/
theorem linkOut_halves (hl hr : P512.Idx → EReal) (W : Tall.Idx → EReal) (b1 : V512.Idx → EReal) (w2 : Col.Idx → EReal) (b2 : V1.Idx → EReal)
    (hs0 : Tall.Slices ![0, 0] Sq) (hs1 : Tall.Slices ![512, 0] Sq) (hc1 : V512.ShapeCasts Row) (hc2 : V1.ShapeCasts One)
    (hc3 : P1.ShapeCasts Pn) :
    shapeCast Pn (linkOut hl hr (extractStridedSlice Sq ![0, 0] W hs0) (extractStridedSlice Sq ![512, 0] W hs1) (shapeCast Row b1 hc1) w2
        (shapeCast One b2 hc2)) hc3
      = linkRef hl hr W b1 w2 b2 := by
  funext i
  obtain ⟨p, rfl⟩ : ∃ p : Fin 200000, i = ix1 p := ⟨i 0, eq_ix1 i⟩
  rw [shapeCast_apply _ hc3 (ix1 p) (ix2 p (0 : Fin 1)) (by
    rw [Shape.rowMajor_val_two, Shape.rowMajor_val_one]
    show p.val * 1 + 0 = p.val
    omega)]
  unfold linkOut linkRef
  have eb2 : shapeCast One b2 hc2 (ix2 (0 : Fin 1) (0 : Fin 1)) = b2 (ix1 (0 : Fin 1)) := shapeCast_a_1a_apply b2 hc2 0 0
  rw [eb2]
  refine congrArg Ideal.logistic (congrArg (· + b2 (ix1 (0 : Fin 1))) (Finset.sum_congr rfl fun j _ => ?_))
  exact congrArg (· * w2 (ix2 j (0 : Fin 1))) (hidden_halves hl hr W b1 hs0 hs1 hc1 _ j)

end Cert.LinkSpec

end
-- ==== Proof.KernelValue.lean ====
/-
  The kernel program's result as a function of its arguments, over the extended reals: walking @main's buffer
  contents from the launch to the return, every stretch of host operations computes the reference's own
  stages, each dense region leaves `dense` of its two input arrays, which is the reference's product stage,
  and the link region leaves `linkOut` of its seven input arrays; recast to [200000], that is the reference's
  final stage.
-/
import proofs.«151596_j66571993088847_1_alg».proof.Proof.DenseRegion0
import proofs.«151596_j66571993088847_1_alg».proof.Proof.DenseRegion1
import proofs.«151596_j66571993088847_1_alg».proof.Proof.LinkRegion
import proofs.«151596_j66571993088847_1_alg».proof.Proof.HostStages
import proofs.«151596_j66571993088847_1_alg».proof.Proof.RefLink
import proofs.«151596_j66571993088847_1_alg».proof.Proof.LinkBridge

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)

/-- The kernel's `dense` is the reference's product stage: the same sum over the shared axis. -/
theorem dense_eq (x : Vec Ideal S50000x512 .f32) (w : Vec Ideal S512x512 .f32) :
    Dense.dense x w = val_main_v33 (F := Ideal) x w := by
  funext i
  rw [val_main_v33_apply]
  rfl

/-- At the first dense layer's exit: its result array is the reference's first product stage, the edge lists and the
    coefficients are as the first stretch left them, and the arguments not yet used are unchanged. -/
theorem afterRegion0 (c : Dev nD) :
    W4 m ρ c (Proc.devRef .tc main_v33) = val_main_v33 (F := Ideal) (a0 m c) (a3 m c)
    ∧ W4 m ρ c (Proc.devRef .tc main_v3) = val_main_v3 (F := Ideal) (a1 m c)
    ∧ W4 m ρ c (Proc.devRef .tc main_v7) = val_main_v7 (F := Ideal) (a1 m c)
    ∧ W4 m ρ c (Proc.devRef .tc main_v32) = val_main_v32 (F := Ideal) (a1 m c)
    ∧ W4 m ρ c (Proc.devRef .tc main_arg2) = a2 m c
    ∧ W4 m ρ c (Proc.devRef .tc main_arg4) = a4 m c
    ∧ W4 m ρ c (Proc.devRef .tc main_arg5) = a5 m c
    ∧ W4 m ρ c (Proc.devRef .tc main_arg6) = a6 m c
    ∧ W4 m ρ c (Proc.devRef .tc main_arg7) = a7 m c
    ∧ W4 m ρ c (Proc.devRef .tc main_arg8) = a8 m c
    ∧ W4 m ρ c (Proc.devRef .tc main_arg9) = a9 m c
    ∧ W4 m ρ c (Proc.devRef .tc main_arg10) = a10 m c := by
  -- the stretch before the first dense layer
  have hA := HostStages.beforeFirst (F := Ideal) (W0 m ρ c)
  have s3 : W3 m ρ c (Proc.devRef .tc main_v3) = val_main_v3 (F := Ideal) (a1 m c) := hA.1
  have s7 : W3 m ρ c (Proc.devRef .tc main_v7) = val_main_v7 (F := Ideal) (a1 m c) := hA.2.1
  have s32 : W3 m ρ c (Proc.devRef .tc main_v32) = val_main_v32 (F := Ideal) (a1 m c) := hA.2.2.1
  have p_arg0 : W3 m ρ c (Proc.devRef .tc main_arg0) = (a0 m c) := hA.2.2.2.1
  have p_arg2 : W3 m ρ c (Proc.devRef .tc main_arg2) = (a2 m c) := hA.2.2.2.2.1
  have p_arg3 : W3 m ρ c (Proc.devRef .tc main_arg3) = (a3 m c) := hA.2.2.2.2.2.1
  have p_arg4 : W3 m ρ c (Proc.devRef .tc main_arg4) = (a4 m c) := hA.2.2.2.2.2.2.1
  have p_arg5 : W3 m ρ c (Proc.devRef .tc main_arg5) = (a5 m c) := hA.2.2.2.2.2.2.2.1
  have p_arg6 : W3 m ρ c (Proc.devRef .tc main_arg6) = (a6 m c) := hA.2.2.2.2.2.2.2.2.1
  have p_arg7 : W3 m ρ c (Proc.devRef .tc main_arg7) = (a7 m c) := hA.2.2.2.2.2.2.2.2.2.1
  have p_arg8 : W3 m ρ c (Proc.devRef .tc main_arg8) = (a8 m c) := hA.2.2.2.2.2.2.2.2.2.2.1
  have p_arg9 : W3 m ρ c (Proc.devRef .tc main_arg9) = (a9 m c) := hA.2.2.2.2.2.2.2.2.2.2.2.1
  have p_arg10 : W3 m ρ c (Proc.devRef .tc main_arg10) = (a10 m c) := hA.2.2.2.2.2.2.2.2.2.2.2.2
  -- the first dense layer
  have r0 : W4 m ρ c (Proc.devRef .tc main_v33) = val_main_v33 (F := Ideal) (a0 m c) (a3 m c) := by
    refine (W4_arr m ρ c 2).trans ((Dense0.final (V3 m ρ) c).trans ?_)
    rw [dense_eq]
    show val_main_v33 (F := Ideal) (W3 m ρ c (Proc.devRef .tc main_arg0)) (W3 m ρ c (Proc.devRef .tc main_arg3)) = _
    rw [p_arg0, p_arg3]
  have u3 : W4 m ρ c (Proc.devRef .tc main_v3) = val_main_v3 (F := Ideal) (a1 m c) := (W4_of_ne m ρ c main_v3 (by decide)).trans s3
  have u7 : W4 m ρ c (Proc.devRef .tc main_v7) = val_main_v7 (F := Ideal) (a1 m c) := (W4_of_ne m ρ c main_v7 (by decide)).trans s7
  have u32 : W4 m ρ c (Proc.devRef .tc main_v32) = val_main_v32 (F := Ideal) (a1 m c) := (W4_of_ne m ρ c main_v32 (by decide)).trans s32
  have u_arg2 : W4 m ρ c (Proc.devRef .tc main_arg2) = (a2 m c) := (W4_of_ne m ρ c main_arg2 (by decide)).trans p_arg2
  have u_arg4 : W4 m ρ c (Proc.devRef .tc main_arg4) = (a4 m c) := (W4_of_ne m ρ c main_arg4 (by decide)).trans p_arg4
  have u_arg5 : W4 m ρ c (Proc.devRef .tc main_arg5) = (a5 m c) := (W4_of_ne m ρ c main_arg5 (by decide)).trans p_arg5
  have u_arg6 : W4 m ρ c (Proc.devRef .tc main_arg6) = (a6 m c) := (W4_of_ne m ρ c main_arg6 (by decide)).trans p_arg6
  have u_arg7 : W4 m ρ c (Proc.devRef .tc main_arg7) = (a7 m c) := (W4_of_ne m ρ c main_arg7 (by decide)).trans p_arg7
  have u_arg8 : W4 m ρ c (Proc.devRef .tc main_arg8) = (a8 m c) := (W4_of_ne m ρ c main_arg8 (by decide)).trans p_arg8
  have u_arg9 : W4 m ρ c (Proc.devRef .tc main_arg9) = (a9 m c) := (W4_of_ne m ρ c main_arg9 (by decide)).trans p_arg9
  have u_arg10 : W4 m ρ c (Proc.devRef .tc main_arg10) = (a10 m c) := (W4_of_ne m ρ c main_arg10 (by decide)).trans p_arg10
  exact ⟨r0, u3, u7, u32, u_arg2, u_arg4, u_arg5, u_arg6, u_arg7, u_arg8, u_arg9, u_arg10⟩

/-- At the second dense layer's exit: its result array is the reference's second product stage. -/
theorem afterRegion1 (c : Dev nD) :
    W7 m ρ c (Proc.devRef .tc main_v51) = val_main_v51 (F := Ideal) (a0 m c) (a1 m c) (a3 m c) (a4 m c) (a5 m c)
    ∧ W7 m ρ c (Proc.devRef .tc main_v3) = val_main_v3 (F := Ideal) (a1 m c)
    ∧ W7 m ρ c (Proc.devRef .tc main_v7) = val_main_v7 (F := Ideal) (a1 m c)
    ∧ W7 m ρ c (Proc.devRef .tc main_v32) = val_main_v32 (F := Ideal) (a1 m c)
    ∧ W7 m ρ c (Proc.devRef .tc main_arg2) = a2 m c
    ∧ W7 m ρ c (Proc.devRef .tc main_arg6) = a6 m c
    ∧ W7 m ρ c (Proc.devRef .tc main_arg7) = a7 m c
    ∧ W7 m ρ c (Proc.devRef .tc main_arg8) = a8 m c
    ∧ W7 m ρ c (Proc.devRef .tc main_arg9) = a9 m c
    ∧ W7 m ρ c (Proc.devRef .tc main_arg10) = a10 m c := by
  obtain ⟨r0, u3, u7, u32, u_arg2, u_arg4, u_arg5, u_arg6, u_arg7, u_arg8, u_arg9, u_arg10⟩ := afterRegion0 m ρ c
  -- the stretch after it
  have hB := HostStages.afterFirst (F := Ideal) (W4 m ρ c) (a0 m c) (a1 m c) (a3 m c) (a4 m c) r0 u3 u7 u32 u_arg4
  have t50 : W6 m ρ c (Proc.devRef .tc main_v50) = val_main_v50 (F := Ideal) (a0 m c) (a1 m c) (a3 m c) (a4 m c) := hB.1
  have q_v3 : W6 m ρ c (Proc.devRef .tc main_v3) = W4 m ρ c (Proc.devRef .tc main_v3) := hB.2.1
  have q_v7 : W6 m ρ c (Proc.devRef .tc main_v7) = W4 m ρ c (Proc.devRef .tc main_v7) := hB.2.2.1
  have q_v32 : W6 m ρ c (Proc.devRef .tc main_v32) = W4 m ρ c (Proc.devRef .tc main_v32) := hB.2.2.2.1
  have q_arg2 : W6 m ρ c (Proc.devRef .tc main_arg2) = W4 m ρ c (Proc.devRef .tc main_arg2) := hB.2.2.2.2.1
  have q_arg5 : W6 m ρ c (Proc.devRef .tc main_arg5) = W4 m ρ c (Proc.devRef .tc main_arg5) := hB.2.2.2.2.2.1
  have q_arg6 : W6 m ρ c (Proc.devRef .tc main_arg6) = W4 m ρ c (Proc.devRef .tc main_arg6) := hB.2.2.2.2.2.2.1
  have q_arg7 : W6 m ρ c (Proc.devRef .tc main_arg7) = W4 m ρ c (Proc.devRef .tc main_arg7) := hB.2.2.2.2.2.2.2.1
  have q_arg8 : W6 m ρ c (Proc.devRef .tc main_arg8) = W4 m ρ c (Proc.devRef .tc main_arg8) := hB.2.2.2.2.2.2.2.2.1
  have q_arg9 : W6 m ρ c (Proc.devRef .tc main_arg9) = W4 m ρ c (Proc.devRef .tc main_arg9) := hB.2.2.2.2.2.2.2.2.2.1
  have q_arg10 : W6 m ρ c (Proc.devRef .tc main_arg10) = W4 m ρ c (Proc.devRef .tc main_arg10) := hB.2.2.2.2.2.2.2.2.2.2
  -- the second dense layer
  have r1 : W7 m ρ c (Proc.devRef .tc main_v51) = val_main_v51 (F := Ideal) (a0 m c) (a1 m c) (a3 m c) (a4 m c) (a5 m c) := by
    refine (W7_arr m ρ c 2).trans ((Dense1.final (V6 m ρ) c).trans ?_)
    rw [dense_eq]
    show val_main_v33 (F := Ideal) (W6 m ρ c (Proc.devRef .tc main_v50)) (W6 m ρ c (Proc.devRef .tc main_arg5)) = _
    rw [t50, q_arg5, u_arg5]
    rfl
  have w3 : W7 m ρ c (Proc.devRef .tc main_v3) = val_main_v3 (F := Ideal) (a1 m c) := (W7_of_ne m ρ c main_v3 (by decide)).trans (q_v3.trans u3)
  have w7 : W7 m ρ c (Proc.devRef .tc main_v7) = val_main_v7 (F := Ideal) (a1 m c) := (W7_of_ne m ρ c main_v7 (by decide)).trans (q_v7.trans u7)
  have w32 : W7 m ρ c (Proc.devRef .tc main_v32) = val_main_v32 (F := Ideal) (a1 m c) := (W7_of_ne m ρ c main_v32 (by decide)).trans (q_v32.trans u32)
  have w_arg2 : W7 m ρ c (Proc.devRef .tc main_arg2) = (a2 m c) := (W7_of_ne m ρ c main_arg2 (by decide)).trans (q_arg2.trans u_arg2)
  have w_arg6 : W7 m ρ c (Proc.devRef .tc main_arg6) = (a6 m c) := (W7_of_ne m ρ c main_arg6 (by decide)).trans (q_arg6.trans u_arg6)
  have w_arg7 : W7 m ρ c (Proc.devRef .tc main_arg7) = (a7 m c) := (W7_of_ne m ρ c main_arg7 (by decide)).trans (q_arg7.trans u_arg7)
  have w_arg8 : W7 m ρ c (Proc.devRef .tc main_arg8) = (a8 m c) := (W7_of_ne m ρ c main_arg8 (by decide)).trans (q_arg8.trans u_arg8)
  have w_arg9 : W7 m ρ c (Proc.devRef .tc main_arg9) = (a9 m c) := (W7_of_ne m ρ c main_arg9 (by decide)).trans (q_arg9.trans u_arg9)
  have w_arg10 : W7 m ρ c (Proc.devRef .tc main_arg10) = (a10 m c) := (W7_of_ne m ρ c main_arg10 (by decide)).trans (q_arg10.trans u_arg10)
  exact ⟨r1, w3, w7, w32, w_arg2, w_arg6, w_arg7, w_arg8, w_arg9, w_arg10⟩

set_option maxHeartbeats 800000 in
/-- At the link region's entry: its seven input arrays are the reference's two gathered stages, the halves of the
    first weight, the first bias recast to a row, the second weight, and the second bias recast to [1, 1]. -/
theorem entryRegion2 (c : Dev nD) :
    W8 m ρ c (Proc.devRef .tc main_v76) = val_main_v76 (F := Ideal) (a0 m c) (a1 m c) (a2 m c) (a3 m c) (a4 m c) (a5 m c) (a6 m c)
    ∧ W8 m ρ c (Proc.devRef .tc main_v85) = val_main_v85 (F := Ideal) (a0 m c) (a1 m c) (a2 m c) (a3 m c) (a4 m c) (a5 m c) (a6 m c)
    ∧ W8 m ρ c (Proc.devRef .tc main_v86) = extractStridedSlice S512x512 ![0, 0] (a7 m c) slices_S1024x512_S512x512_0_0
    ∧ W8 m ρ c (Proc.devRef .tc main_v87) = extractStridedSlice S512x512 ![512, 0] (a7 m c) slices_S1024x512_S512x512_512_0
    ∧ W8 m ρ c (Proc.devRef .tc main_v88) = shapeCast S1x512 (a8 m c) shapeCasts_S512_S1x512
    ∧ W8 m ρ c (Proc.devRef .tc main_arg9) = a9 m c
    ∧ W8 m ρ c (Proc.devRef .tc main_v89) = shapeCast S1x1 (a10 m c) shapeCasts_S1_S1x1 := by
  obtain ⟨r1, w3, w7, w32, w_arg2, w_arg6, w_arg7, w_arg8, w_arg9, w_arg10⟩ := afterRegion1 m ρ c
  -- the stretch after it
  have hC := HostStages.afterSecond (F := Ideal) (W7 m ρ c) (a0 m c) (a1 m c) (a2 m c) (a3 m c) (a4 m c) (a5 m c) (a6 m c) r1 w3 w7 w32 w_arg6 w_arg2
  have g76 : W8 m ρ c (Proc.devRef .tc main_v76) = val_main_v76 (F := Ideal) (a0 m c) (a1 m c) (a2 m c) (a3 m c) (a4 m c) (a5 m c) (a6 m c) := hC.1
  have g85 : W8 m ρ c (Proc.devRef .tc main_v85) = val_main_v85 (F := Ideal) (a0 m c) (a1 m c) (a2 m c) (a3 m c) (a4 m c) (a5 m c) (a6 m c) := hC.2.1
  have g86 : W8 m ρ c (Proc.devRef .tc main_v86) = extractStridedSlice S512x512 ![0, 0] (a7 m c) slices_S1024x512_S512x512_0_0 :=
    hC.2.2.1.trans (congrArg (fun z => extractStridedSlice S512x512 ![0, 0] z slices_S1024x512_S512x512_0_0) w_arg7)
  have g87 : W8 m ρ c (Proc.devRef .tc main_v87) = extractStridedSlice S512x512 ![512, 0] (a7 m c) slices_S1024x512_S512x512_512_0 :=
    hC.2.2.2.1.trans (congrArg (fun z => extractStridedSlice S512x512 ![512, 0] z slices_S1024x512_S512x512_512_0) w_arg7)
  have g88 : W8 m ρ c (Proc.devRef .tc main_v88) = shapeCast S1x512 (a8 m c) shapeCasts_S512_S1x512 :=
    hC.2.2.2.2.1.trans (congrArg (fun z => shapeCast S1x512 z shapeCasts_S512_S1x512) w_arg8)
  have g89 : W8 m ρ c (Proc.devRef .tc main_v89) = shapeCast S1x1 (a10 m c) shapeCasts_S1_S1x1 :=
    hC.2.2.2.2.2.1.trans (congrArg (fun z => shapeCast S1x1 z shapeCasts_S1_S1x1) w_arg10)
  have g9 : W8 m ρ c (Proc.devRef .tc main_arg9) = a9 m c := hC.2.2.2.2.2.2.trans w_arg9
  exact ⟨g76, g85, g86, g87, g88, g9, g89⟩

/-- At the link region's exit: its result array is `linkOut` of those seven arrays. -/
theorem afterRegion2 (c : Dev nD) :
    W9 m ρ c (Proc.devRef .tc main_v90)
      = Cert.LinkSpec.linkOut (val_main_v76 (F := Ideal) (a0 m c) (a1 m c) (a2 m c) (a3 m c) (a4 m c) (a5 m c) (a6 m c))
          (val_main_v85 (F := Ideal) (a0 m c) (a1 m c) (a2 m c) (a3 m c) (a4 m c) (a5 m c) (a6 m c))
          (extractStridedSlice S512x512 ![0, 0] (a7 m c) slices_S1024x512_S512x512_0_0)
          (extractStridedSlice S512x512 ![512, 0] (a7 m c) slices_S1024x512_S512x512_512_0)
          (shapeCast S1x512 (a8 m c) shapeCasts_S512_S1x512) (a9 m c) (shapeCast S1x1 (a10 m c) shapeCasts_S1_S1x1) := by
  obtain ⟨g76, g85, g86, g87, g88, g9, g89⟩ := entryRegion2 m ρ c
  exact ((W9_arr m ρ c 7).trans (Link.final (V8 m ρ) c)).trans
    (congr (congr (congr (congr (congr (congr (congrArg Cert.LinkSpec.linkOut g76) g85) g86) g87) g88) g9) g89)

/-- THE KERNEL'S RESULT: the last buffer contents of the walk through @main, at the result buffer, is the
    reference's final stage of the same arguments. -/
theorem result_eq (c : Dev nD) :
    W10 m ρ c (Proc.devRef .tc main_v91)
      = val_main_v102 (F := Ideal) (a0 m c) (a1 m c) (a2 m c) (a3 m c) (a4 m c) (a5 m c) (a6 m c) (a7 m c) (a8 m c) (a9 m c) (a10 m c) := by
  -- the return drops the unit axis; recast, the link predictor on the halves is the reference's on the whole weight
  refine (HostStages.atReturn (F := Ideal) (W9 m ρ c)).trans ?_
  refine (congrArg (fun z => shapeCast S200000 z shapeCasts_S200000x1_S200000) (afterRegion2 m ρ c)).trans ?_
  refine Eq.trans ?_ (Cert.ReferenceIdeal.Link.result_eq (a0 m c) (a1 m c) (a2 m c) (a3 m c) (a4 m c) (a5 m c) (a6 m c) (a7 m c) (a8 m c) (a9 m c) (a10 m c)).symm
  exact Cert.LinkSpec.linkOut_halves _ _ (a7 m c) (a8 m c) (a9 m c) (a10 m c) _ _ _ _ _

end Cert.KernelIdeal.Whole

end
-- ==== Proof.lean ====
/-
  The certificate of a two-layer graph convolution followed by a link predictor, against its jnp reference,
  over the extended reals.

  Both programs build the same edge lists (the given edges and one self loop per node), the same degree
  normalisation, and pass messages the same way (gather the rows of a dense layer's result along the
  sources, scale, scatter-add along the targets, add the bias). They differ in three places. The two dense
  layers x·W1 and relu(·)·W2 are host products in the reference and kernel regions in the kernel program: a
  region walks 25 row-blocks of 2000 rows and writes each block's product; a change of float format is the
  identity over the extended reals and a product into a zero accumulator is the plain sum, so the 25 blocks are
  the 25 row-blocks of the one product. The link predictor σ(relu([hl, hr]·W + b1)·w2 + b2) is a third
  region over 100 row-blocks, handed W as its two halves: Σ over the 1024 joined columns is the Σ over the
  first 512 (against W's upper half) plus the Σ over the last 512 (against the lower half) — sums of extended
  reals commute and associate, so no input needs to be finite —, and σ is written `logistic` in the kernel and
  1 / (1 + e^(−·)) on the host, one function over the extended reals.

  So the kernel program's result buffer ends at the reference's final stage of the same arguments
  (Proof/KernelValue.lean), both programs terminate without a fault with their arguments unchanged, and the
  pass that idealised the kernel rewrote nothing.
-/
import proofs.«151596_j66571993088847_1_alg».proof.Defs
import proofs.«151596_j66571993088847_1_alg».proof.Proof.Gen.Kernel
import proofs.«151596_j66571993088847_1_alg».proof.Proof.Gen.Kernel.Frame
import proofs.«151596_j66571993088847_1_alg».proof.Proof.Gen.KernelIdeal
import proofs.«151596_j66571993088847_1_alg».proof.Proof.Gen.KernelIdeal.Frame
import proofs.«151596_j66571993088847_1_alg».proof.Proof.Gen.ReferenceIdeal
import proofs.«151596_j66571993088847_1_alg».proof.Proof.Gen.Pre_finite_inputs
import proofs.«151596_j66571993088847_1_alg».proof.Proof.KernelIdealRun
import proofs.«151596_j66571993088847_1_alg».proof.Proof.KernelValue
import proofs.«151596_j66571993088847_1_alg».proof.Proof.RefRun
import proofs.«151596_j66571993088847_1_alg».proof.Proof.RefRead
import Idealize.ShloMosaic.Adequacy
import Idealize.ShloMosaic.Init

noncomputable section

namespace Cert.Proof

open Idealize.ShloMosaic Idealize.SL.Sem

/-- The word-level kernel program terminates without a fault, its arguments unchanged. -/
theorem frame_k : @Cert.frame_Kernel Cert.Kernel.Gen.facts Cert.Pre_finite_inputs.Gen.facts :=
  fun m ρ _ => Cert.Kernel.Gen.frame m ρ

/-- So does the idealised kernel program. -/
theorem frame_ki : @Cert.frame_KernelIdeal Cert.KernelIdeal.Gen.facts Cert.Pre_finite_inputs.Gen.facts :=
  fun m ρ _ => Cert.KernelIdeal.Gen.frame m ρ

/-- And the reference: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealised programs, from memories that agree on the arguments, end with the same result: the kernel
    program's result buffer ends at the reference's final stage of its own arguments, the reference's at the same
    stage of arguments that are the same arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W10 m ρ c (Proc.devRef .tc Cert.KernelIdeal.main_v91), Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (Cert.KernelIdeal.Whole.result_eq m ρ c).symm
  obtain ⟨e0, e1, e2, e3, e4, e5, e6, e7, e8, e9, e10⟩ := hagree c
  rw [Cert.ReferenceIdeal.Read.val_main_v102_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
